-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg1 main_v24
  let main_c_9 : IVec S_ 32 := constantI S_ 32 100000#32
  let main_v26 : IVec S2x1600000 32 := broadcastInDim S2x1600000 ![] bcast_S_S2x1600000 main_c_9
  let main_v27 : IVec S2x1600000 1 := cmpi .slt main_arg1 main_v26
  let main_v28 : IVec S2x1600000 1 := andi main_v25 main_v27
  let main_c_10 : IVec S_ 1 := constantI S_ 1 1#1
  let main_v29 : IVec S_ 1 := (fun x v => Host.reduce IntOp.andi x v reducesTo_S2x1600000_S_d0_1 h_S_) main_v28 main_c_10
  let main_v30 : IVec S_ 1 := andi main_v23 main_v29
  main_v30

def fn {F : FTy → Type} [FloatOps F] (main_arg0 : FVec F S100000x256 .f32) (main_arg1 : IVec S2x1600000 32) (main_arg2 : FVec F S256x64 .f32) (main_arg3 : FVec F S64 .f32) (main_arg4 : FVec F S64x32 .f32) (main_arg5 : FVec F S32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg5 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩
abbrev S100000x32 : Shape := ⟨2, ![100000, 32]⟩
abbrev S5000x32 : Shape := ⟨2, ![5000, 32]⟩
abbrev S1600000x32 : Shape := ⟨2, ![1600000, 32]⟩
abbrev S1x32 : Shape := ⟨2, ![1, 32]⟩
abbrev S5000 : Shape := ⟨1, ![5000]⟩

abbrev nBuf : Space → Nat
  | .hbm => 80
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1, .i32⟩
  | .hbm, ⟨31, _⟩ => ⟨S_, .i32⟩
  | .hbm, ⟨32, _⟩ => ⟨S1600000x1, .i32⟩
  | .hbm, ⟨33, _⟩ => ⟨S1600000x1, .i1⟩
  | .hbm, ⟨34, _⟩ => ⟨S1x1, .i32⟩
  | .hbm, ⟨35, _⟩ => ⟨S1600000x1, .i32⟩
  | .hbm, ⟨36, _⟩ => ⟨S1600000x1, .i1⟩
  | .hbm, ⟨37, _⟩ => ⟨S1600000x1, .i1⟩
  | .hbm, ⟨38, _⟩ => ⟨S_, .i1⟩
  | .hbm, ⟨39, _⟩ => ⟨S1600000, .i1⟩
  | .hbm, ⟨40, _⟩ => ⟨S1600000x64, .f32⟩
  | .hbm, ⟨41, _⟩ => ⟨S1600000x64, .i1⟩
  | .hbm, ⟨42, _⟩ => ⟨S_, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S1x64, .f32⟩
  | .hbm, ⟨50, _⟩ => ⟨S100000x32, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1, .i32⟩
  | .hbm, ⟨60, _⟩ => ⟨S_, .i32⟩
  | .hbm, ⟨61, _⟩ => ⟨S1600000x1, .i32⟩
  | .hbm, ⟨62, _⟩ => ⟨S1600000x1, .i1⟩
  | .hbm, ⟨63, _⟩ => ⟨S1x1, .i32⟩
  | .hbm, ⟨64, _⟩ => ⟨S1600000x1, .i32⟩
  | .hbm, ⟨65, _⟩ => ⟨S1600000x1, .i1⟩
  | .hbm, ⟨66, _⟩ => ⟨S1600000x1, .i1⟩
  | .hbm, ⟨67, _⟩ => ⟨S_, .i1⟩
  | .hbm, ⟨68, _⟩ => ⟨S1600000, .i1⟩
  | .hbm, ⟨69, _⟩ => ⟨S1600000x32, .f32⟩
  | .hbm, ⟨70, _⟩ => ⟨S1600000x32, .i1⟩
  | .hbm, ⟨71, _⟩ => ⟨S_, .f32⟩
  | .hbm, ⟨72, _⟩ => ⟨S1600000x32, .f32⟩
  | .hbm, ⟨73, _⟩ => ⟨S1600000x32, .f32⟩
  | .hbm, ⟨74, _⟩ => ⟨S_, .f32⟩
  | .hbm, ⟨75, _⟩ => ⟨S100000x32, .f32⟩
  | .hbm, ⟨76, _⟩ => ⟨S1600000x1, .i32⟩
  | .hbm, ⟨77, _⟩ => ⟨S100000x32, .f32⟩
  | .hbm, ⟨78, _⟩ => ⟨S1x32, .f32⟩
  | .hbm, ⟨79, _⟩ => ⟨S100000x32, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S64x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x1, .f32⟩
  | .local _ .vmem, ⟨22, _⟩ => ⟨S5000x1, .f32⟩
  | .local _ .vmem, ⟨23, _⟩ => ⟨S1x32, .f32⟩
  | .local _ .vmem, ⟨24, _⟩ => ⟨S5000x32, .f32⟩
  | .local _ .vmem, ⟨25, _⟩ => ⟨S5000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v19 : Ref sig .tc := ⟨.hbm, 73, rfl⟩
abbrev main_cst_3 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  scatter_S100000_S1600000x1_S1600000_n_0_0_1_wf : ScatterDims.WF S100000 S1600000x1 S1600000 [] [0] [0] 1
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S100000x32.size a
  hwx2_4 : ∀ i : grid2.Coords, EltTy.bits .f32 = 32 ∨ (Rect.block (s := S100000x32) S5000x32.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v22) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v23) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S5000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x32, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000, .f32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x32, .f32⟩
  | .hbm, ⟨96, _⟩ => ⟨S1600000x1, .f32⟩
  | .hbm, ⟨97, _⟩ => ⟨S1600000x32, .f32⟩
  | .hbm, ⟨98, _⟩ => ⟨S1600000x32, .f32⟩
  | .hbm, ⟨99, _⟩ => ⟨S_, .f32⟩
  | .hbm, ⟨100, _⟩ => ⟨S100000x32, .f32⟩
  | .hbm, ⟨101, _⟩ => ⟨S1600000x1, .i32⟩
  | .hbm, ⟨102, _⟩ => ⟨S100000x32, .f32⟩
  | .hbm, ⟨103, _⟩ => ⟨S100000, .f32⟩
  | .hbm, ⟨104, _⟩ => ⟨S100000x1, .f32⟩
  | .hbm, ⟨105, _⟩ => ⟨S100000x32, .f32⟩
  | .hbm, ⟨106, _⟩ => ⟨S100000x32, .f32⟩
  | .hbm, ⟨107, _⟩ => ⟨S100000x32, .f32⟩
  | .hbm, ⟨108, _⟩ => ⟨S1x32, .f32⟩
  | .hbm, ⟨109, _⟩ => ⟨S100000x32, .f32⟩
  | .hbm, ⟨110, _⟩ => ⟨S100000x32, .f32⟩
  | .hbm, ⟨111, _⟩ => ⟨S_, .f32⟩
  | .hbm, ⟨112, _⟩ => ⟨S100000, .f32⟩
  | .hbm, ⟨113, _⟩ => ⟨S_, .f32⟩
  | .hbm, ⟨114, _⟩ => ⟨S100000, .f32⟩
  | .hbm, ⟨115, _⟩ => ⟨S100000, .f32⟩
  | .hbm, ⟨116, _⟩ => ⟨S100000x1, .f32⟩
  | .hbm, ⟨117, _⟩ => ⟨S100000x32, .f32⟩
  | .hbm, ⟨118, _⟩ => ⟨S100000x32, .f32⟩
  | .hbm, ⟨119, _⟩ => ⟨S100000x32, .f32⟩
  | .hbm, ⟨120, _⟩ => ⟨S_, .f32⟩
  | .hbm, ⟨121, _⟩ => ⟨S100000, .f32⟩
  | .hbm, ⟨122, _⟩ => ⟨S100000x1, .f32⟩
  | .hbm, ⟨123, _⟩ => ⟨S100000x32, .f32⟩
  | .hbm, ⟨124, _⟩ => ⟨S100000x32, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_cst_16 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_17 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  scatter_S100000_S1600000x1_S1600000_n_0_0_1_wf : ScatterDims.WF S100000 S1600000x1 S1600000 [] [0] [0] 1
  dot_S100000x256_S256x64_S100000x64_1_0_0_1_n_n_wf : DotDims.WF S100000x256 S256x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.Model.lean ====
/-
  The whole-array functions this certificate is stated over, at the exact instance: every array is a function from its
  index to an extended real.

  A graph-convolution layer acts on a node-feature array `y : [N, D]` through a per-node scale `d : [N, 1]`
  (the inverse square root of the degree), an aggregated array `agg : [N, D]` (the sum over incoming edges) and a bias row:
  `combine agg y d b = d · (agg + y) + b`, row by row. `proj1` is the first projection `d · (x W)`; `proj2` is the second,
  applied to the rectified first layer, `d · (max (combine …) 0 · W)`; `softmaxRows` is the row-wise softmax with the row's
  maximum subtracted.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- An extended real that is a real number. -/
def IsReal (x : EReal) : Prop := ∃ r : ℝ, x = (r : EReal)

/-- A two-axis array of extended reals. -/
abbrev Arr2 (a b : Nat) : Type := FVec Ideal (⟨2, ![a, b]⟩ : Shape) .f32
/-- A one-axis array of extended reals. -/
abbrev Arr1 (a : Nat) : Type := FVec Ideal (⟨1, ![a]⟩ : Shape) .f32

/-- `d · (x W)`: row `n` of the product `x W` scaled by `d n`. -/
def proj1 (x : Arr2 100000 256) (w : Arr2 256 64) (d : Arr2 100000 1) : Arr2 100000 64 :=
  fun i => d (ix2 (i 0) 0) * ∑ k : Fin 256, x (ix2 (i 0) k) * w (ix2 k (i 1))

/-- `d · (agg + y) + b`, the bias a row broadcast over the nodes. -/
def combine {D : Nat} (agg y : Arr2 100000 D) (d : Arr2 100000 1) (b : Arr2 1 D) : Arr2 100000 D :=
  fun i => d (ix2 (i 0) 0) * (agg i + y i) + b (ix2 0 (i 1))

/-- `d · (max (combine agg y d b) 0 · W)`: the second projection of the rectified first layer. -/
def proj2 (agg y : Arr2 100000 64) (d : Arr2 100000 1) (b : Arr2 1 64) (w : Arr2 64 32) : Arr2 100000 32 :=
  fun i => d (ix2 (i 0) 0) * ∑ k : Fin 64, max (combine agg y d b (ix2 (i 0) k)) 0 * w (ix2 k (i 1))

/-- The second projection over an already combined first layer `v`: `d · (max v 0 · W)`. -/
def proj2v (v : Arr2 100000 64) (d : Arr2 100000 1) (w : Arr2 64 32) : Arr2 100000 32 :=
  fun i => d (ix2 (i 0) 0) * ∑ k : Fin 64, max (v (ix2 (i 0) k)) 0 * w (ix2 k (i 1))

theorem proj2_eq (agg y : Arr2 100000 64) (d : Arr2 100000 1) (b : Arr2 1 64) (w : Arr2 64 32) :
    proj2 agg y d b w = proj2v (combine agg y d b) d w := rfl

/-- A one-axis array read as a column `[N, 1]`. -/
def dcol (v : Arr1 100000) : Arr2 100000 1 := fun i => v (ix1 (i 0))

/-- A one-axis array read as a row `[1, D]`. -/
def brow {D : Nat} (b : Arr1 D) : Arr2 1 D := fun i => b (ix1 (i 1))

/-- The maximum of row `n`, folded from `-∞` (the word `0xFF800000`). -/
def rowMax (v : Arr2 100000 32) (n : Fin 100000) : EReal :=
  (Finset.univ : Finset (Fin 32)).fold max (Ideal.ofBits .f32 0xFF800000#32) (fun c => v (ix2 n c))

/-- The row-wise softmax, the row's maximum subtracted before the exponential. -/
def softmaxRows (v : Arr2 100000 32) : Arr2 100000 32 :=
  fun i => Ideal.div (Ideal.exp (v i - rowMax v (i 0))) (∑ c : Fin 32, Ideal.exp (v (ix2 (i 0) c) - rowMax v (i 0)))

end Cert.Gcn

end
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.RefDefs.lean ====
/-
  Names shared by the modules that read the reference: the per-node scale as a column, and the reference's gather and
  scatter dimension numbers identified with the row forms of `LibIndex`.
-/
import proofs.«422054_j87522843558074_3_alg».proof.Proof.Gen.ReferenceIdeal.Read
import proofs.«422054_j87522843558074_3_alg».proof.Proof.Model
import proofs.«422054_j87522843558074_3_alg».proof.Proof.LibIndex

noncomputable section

namespace Cert.Gcn.Ref

open Idealize.ShloMosaic Idealize.ShloMosaic.ValueIdx Cert.ReferenceIdeal Cert.ReferenceIdeal.Read

/-- The per-node scale `rsqrt (deg + 1)` of the reference, as a column `[N, 1]`. -/
abbrev dscale (ei : IVec S2x1600000 32) : Arr2 100000 1 := dcol (val_main_v10 (F := Ideal) ei)

theorem gather64_eq : gather_S100000x64_S1600000x1_S1600000x64_1_0_n_n_0_1_164
    = rowGatherDims 100000 1600000 64 Facts₀.gather_S100000x64_S1600000x1_S1600000x64_1_0_n_n_0_1_164_wf := rfl
theorem gather32_eq : gather_S100000x32_S1600000x1_S1600000x32_1_0_n_n_0_1_132
    = rowGatherDims 100000 1600000 32 Facts₀.gather_S100000x32_S1600000x1_S1600000x32_1_0_n_n_0_1_132_wf := rfl
theorem gatherVec_eq : gather_S100000_S1600000x1_S1600000_n_0_n_n_0_1_1
    = vecGatherDims 100000 1600000 Facts₀.gather_S100000_S1600000x1_S1600000_n_0_n_n_0_1_1_wf := rfl
theorem scatter64_eq : scatter_S100000x64_S1600000x1_S1600000x64_1_0_0_1
    = rowScatterDims 100000 1600000 64 Facts₀.scatter_S100000x64_S1600000x1_S1600000x64_1_0_0_1_wf := rfl
theorem scatter32_eq : scatter_S100000x32_S1600000x1_S1600000x32_1_0_0_1
    = rowScatterDims 100000 1600000 32 Facts₀.scatter_S100000x32_S1600000x1_S1600000x32_1_0_0_1_wf := rfl

end Cert.Gcn.Ref

end
-- ==== Proof.KReg0.lean ====
/-
  The first kernel region as one whole-array function: its output array, after all twenty row blocks are written back,
  is `proj1` of the three arrays the region finds.
-/
import proofs.«422054_j87522843558074_3_alg».proof.Proof.Gen.KernelIdeal.Frame
import proofs.«422054_j87522843558074_3_alg».proof.Proof.Model
import Idealize.ShloMosaic.Lib.Pipeline.Value
import Idealize.ShloMosaic.Lib.ValueLayout

set_option maxRecDepth 16384

noncomputable section

namespace Cert.Gcn.K

open Idealize.ShloMosaic Idealize.ShloMosaic.ValueIdx Idealize.ShloMosaic.TcCoe Idealize.SL.Sem Cert.KernelIdeal Cert.KernelIdeal.Gen
open Idealize.ShloMosaic.Pipeline (Dat Cfg Window)

namespace R0

/-! ## One row block: the body's result at an entry -/

/-- The operand indices of the block product `[5000,256] × [256,64]`: at output entry `i` and contraction index `q`
    the left operand is read at row `i 0` … -/
theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- … and column `q`; -/
theorem lhs_col (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- the right operand at row `q` … -/
theorem rhs_row (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- … and column `i 1`. -/
theorem rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The block product into a zero accumulator, at entry `(p, q)`: the sum over the 256 inner indices of the products
    (on the extended reals nothing is rounded, so this is the plain sum). -/
theorem blockProduct_apply (a : FVec Ideal S5000x256 .bf16) (b : FVec Ideal S256x64 .bf16) (p : Fin 5000) (q : Fin 64) :
    matmul dot_S5000x256_S256x64_S5000x64_1_0_0_1_n_n none a b (constant (F := Ideal) S5000x64 .f32 0x00000000#32) (ix2 p q)
      = ∑ k : Fin 256, a (ix2 p k) * b (ix2 k q) := by
  simp only [matmul]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ix2 p q) ((ValueIdx.contrEquiv1 dot_S5000x256_S256x64_S5000x64_1_0_0_1_n_n 256 rfl rfl).symm k) = ix2 p k := funext fun a => Fin.ext (by
    match a with
    | ⟨0, _⟩ => exact lhs_row _ _
    | ⟨1, _⟩ => exact (lhs_col _ _).trans hk)
  have er : dot_S5000x256_S256x64_S5000x64_1_0_0_1_n_n.rhsIdx (ix2 p q) ((ValueIdx.contrEquiv1 dot_S5000x256_S256x64_S5000x64_1_0_0_1_n_n 256 rfl rfl).symm k) = ix2 k q := funext fun a => Fin.ext (by
    match a with
    | ⟨0, _⟩ => exact (rhs_row _ _).trans hk
    | ⟨1, _⟩ => exact rhs_col _ _)
  rw [el, er]

/-- The body's result at entry `(p, q)` of its row block: the scale of row `p` times the product row. The two
    narrowings to the 16-bit format are the identity on extended reals; the column of scales is repeated along the row. -/
theorem pay_apply (v0 : Vec Ideal S5000x256 .f32) (v2 : Vec Ideal S256x64 .f32) (v5 : Vec Ideal S5000x1 .f32)
    (p : Fin 5000) (q : Fin 64) :
    k0_pay1 v0 v2 v5 (ix2 p q) = v5 (ix2 p 0) * ∑ k : Fin 256, v0 (ix2 p k) * v2 (ix2 k q) := by
  unfold k0_pay1
  rw [mulf_apply, blockProduct_apply, shapeCast_self,
    broadcastTo_apply v5 broadcasts_S5000x1_S5000x64 (ix2 p q) (ix2 p 0) (fun a => by
      match a with
      | ⟨0, _⟩ => rfl
      | ⟨1, _⟩ => rfl)]
  rfl

/-- The body's result at entry `j` of the row block whose first row is `b`, when the three loaded blocks are the rows
    `b … b + 4999` of `X`, all of `W`, and the rows `b … b + 4999` of `D`: entry `(b + j 0, j 1)` of `proj1 X W D`. -/
theorem pay_block (X : Arr2 100000 256) (W : Arr2 256 64) (D : Arr2 100000 1)
    (x0 : Vec Ideal S5000x256 .f32) (x1 : Vec Ideal S256x64 .f32) (x2 : Vec Ideal S5000x1 .f32)
    (b : Nat) (j : S5000x64.Idx) (i : S100000x64.Idx)
    (hi0 : (i 0).val = b + (j 0).val) (hi1 : (i 1).val = (j 1).val)
    (h0 : ∀ (y : S5000x256.Idx) (z : S100000x256.Idx), (z 0).val = b + (y 0).val → (z 1).val = (y 1).val → x0 y = X z)
    (h1 : ∀ y : S256x64.Idx, x1 y = W y)
    (h2 : ∀ (y : S5000x1.Idx) (z : S100000x1.Idx), (z 0).val = b + (y 0).val → x2 y = D z) :
    k0_pay1 x0 x1 x2 j = proj1 X W D i := by
  obtain ⟨p, q, rfl⟩ : ∃ (p : Fin 5000) (q : Fin 64), j = ix2 p q := ⟨j 0, j 1, eq_ix2 j⟩
  obtain ⟨n, q', rfl⟩ : ∃ (n : Fin 100000) (q' : Fin 64), i = ix2 n q' := ⟨i 0, i 1, eq_ix2 i⟩
  obtain rfl : q' = q := Fin.ext hi1
  rw [pay_apply]
  show x2 (ix2 p 0) * ∑ k : Fin 256, x0 (ix2 p k) * x1 (ix2 k q') = D (ix2 n 0) * ∑ k : Fin 256, X (ix2 n k) * W (ix2 k q')
  rw [h2 (ix2 p 0) (ix2 n 0) hi0]
  exact congrArg (D (ix2 n 0) * ·) (Finset.sum_congr rfl fun k _ => by rw [h0 (ix2 p k) (ix2 n k) hi0 rfl, h1])

/-! ## From row blocks to the array -/

/-- A whole-block access starts at offset zero on both axes. -/
theorem hz : (![0, 0] : Fin 2 → Nat) = fun _ => 0 := funext fun a => by fin_cases a <;> rfl

/-- The block index maps over the twenty grid points: at point `t` the windows on `X`, on `D` and on the output are at
    row block `t`, column block `0`; the window on `W` stays at block `(0, 0)`. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The window on `X` at point `t` holds rows `5000 t … 5000 t + 4999` of `X`. -/
theorem xblock_apply (c : Dev nD) (t : Fin cfg0.N) (y : S5000x256.Idx) (z : S100000x256.Idx)
    (hz0 : (z 0).val = 5000 * t.val + (y 0).val) (hz1 : (z 1).val = (y 1).val) :
    (iblk0 V c 0 t : Vec Ideal S5000x256 .f32) y = (V c (Pipeline.arrRef spec0 0) : Arr2 100000 256) z := by
  obtain ⟨e0, e1, -⟩ := block_index t
  unfold iblk0
  rw [View.read_apply]
  have e : (((cfg0.win 0).blk t).view.emb y : S100000x256.Idx) = z := by
    funext a
    apply Fin.ext
    match a with
    | ⟨0, _⟩ => show win0_0.index t 0 * 5000 + 1 * (y 0).val = (z 0).val; rw [e0, hz0]; omega
    | ⟨1, _⟩ => show win0_0.index t 1 * 256 + 1 * (y 1).val = (z 1).val; rw [e1, hz1]; omega
  exact congrArg (V c (Pipeline.arrRef spec0 0) : S100000x256.Idx → EReal) e

/-- The window on `W` holds all of `W` at every point. -/
theorem wblock_apply (c : Dev nD) (t : Fin cfg0.N) (y : S256x64.Idx) :
    (iblk0 V c 1 t : Vec Ideal S256x64 .f32) y = (V c (Pipeline.arrRef spec0 1) : Arr2 256 64) y := by
  obtain ⟨-, -, e0, e1, -⟩ := block_index t
  unfold iblk0
  rw [View.read_apply]
  have e : (((cfg0.win 1).blk t).view.emb y : S256x64.Idx) = y := by
    funext a
    apply Fin.ext
    match a with
    | ⟨0, _⟩ => show win0_1.index t 0 * 256 + 1 * (y 0).val = (y 0).val; rw [e0]; omega
    | ⟨1, _⟩ => show win0_1.index t 1 * 64 + 1 * (y 1).val = (y 1).val; rw [e1]; omega
  exact congrArg (V c (Pipeline.arrRef spec0 1) : S256x64.Idx → EReal) e

/-- The window on `D` at point `t` holds rows `5000 t … 5000 t + 4999` of the column `D`. -/
theorem dblock_apply (c : Dev nD) (t : Fin cfg0.N) (y : S5000x1.Idx) (z : S100000x1.Idx)
    (hz0 : (z 0).val = 5000 * t.val + (y 0).val) :
    (iblk0 V c 2 t : Vec Ideal S5000x1 .f32) y = (V c (Pipeline.arrRef spec0 2) : Arr2 100000 1) z := by
  obtain ⟨-, -, -, -, e0, e1, -⟩ := block_index t
  unfold iblk0
  rw [View.read_apply]
  have e : (((cfg0.win 2).blk t).view.emb y : S100000x1.Idx) = z := by
    funext a
    apply Fin.ext
    match a with
    | ⟨0, _⟩ => show win0_2.index t 0 * 5000 + 1 * (y 0).val = (z 0).val; rw [e0, hz0]; omega
    | ⟨1, _⟩ =>
      show win0_2.index t 1 * 1 + 1 * (y 1).val = (z 1).val
      have hy : (y 1).val < 1 := (y 1).isLt
      have hz : (z 1).val < 1 := (z 1).isLt
      rw [e1]; omega
  exact congrArg (V c (Pipeline.arrRef spec0 2) : S100000x1.Idx → EReal) e

/-- What point `t` writes back is the restriction of `proj1` of the three arrays to row block `t`. -/
theorem flushed_eq (c : Dev nD) (t : Fin cfg0.N) :
    (dat0 (F := Ideal) V c).flushed 3 t = ((cfg0.win 3).blk t).view.read (Elt Ideal)
      (proj1 (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero hz]
  simp only [View.ld_unit_zero (S := S5000x256) hz, View.ld_unit_zero (S := S256x64) hz, View.ld_unit_zero (S := S5000x1) hz]
  obtain ⟨-, -, -, -, -, -, e0, e1⟩ := block_index t
  funext j
  show k0_pay1 (iblk0 V c 0 t) (iblk0 V c 1 t) (iblk0 V c 2 t) j
    = proj1 (V c (Pipeline.arrRef spec0 0)) (V c (Pipeline.arrRef spec0 1)) (V c (Pipeline.arrRef spec0 2)) (((cfg0.win 3).blk t).view.emb j)
  refine pay_block (V c (Pipeline.arrRef spec0 0)) (V c (Pipeline.arrRef spec0 1)) (V c (Pipeline.arrRef spec0 2))
    (iblk0 V c 0 t) (iblk0 V c 1 t) (iblk0 V c 2 t) (5000 * t.val) j (((cfg0.win 3).blk t).view.emb j) ?_ ?_
    (fun y z h0 h1 => xblock_apply V c t y z h0 h1) (fun y => wblock_apply V c t y) (fun y z h0 => dblock_apply V c t y z h0)
  · show win0_3.index t 0 * 5000 + 1 * (j 0).val = 5000 * t.val + (j 0).val
    rw [e0]; omega
  · show win0_3.index t 1 * 64 + 1 * (j 1).val = (j 1).val
    rw [e1]; omega

/-- An entry of the output array is in point `t`'s block iff each coordinate is in the block's range on its axis. -/
theorem mem_block (t : Fin cfg0.N) (i : S100000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v12).slice (win0_3.rect t)).set ↔ _
  rw [View.set_slice_whole, Rect.mem_set_unit]
  exact Iff.rfl

/-- The twenty row blocks cover the output array: row `r` lies in the block of point `r / 5000`. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  refine ⟨t, flush0_3 t, ?_⟩
  rw [mem_block]
  obtain ⟨-, -, -, -, -, -, e0, e1⟩ := block_index t
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 64 ≤ (i 1).val ∧ (i 1).val < win0_3.index t (1 : Fin 2) * 64 + 64
    rw [e1]; omega

end R0

variable (V : (c : Dev nD) → (b : Ref sig .tc) → Buf (Elt Ideal) ((c : Thread nD τ).loc b))

theorem arr0 (c : Dev nD) :
    (dat0 (F := Ideal) V c).arrAt 3 cfg0.N
      = proj1 (V c (Pipeline.arrRef spec0 0)) (V c (Pipeline.arrRef spec0 1)) (V c (Pipeline.arrRef spec0 2)) :=
  (dat0 (F := Ideal) V c).arrAt_eq_of_cover 3
    (proj1 (V c (Pipeline.arrRef spec0 0)) (V c (Pipeline.arrRef spec0 1)) (V c (Pipeline.arrRef spec0 2)))
    (fun t _ => R0.flushed_eq V c t) R0.covered

end Cert.Gcn.K

end
-- ==== Proof.KReg1.lean ====
/-
  The second kernel region as one whole-array function: its output array is `proj2` of the five arrays the region finds.
-/
import proofs.«422054_j87522843558074_3_alg».proof.Proof.Gen.KernelIdeal.Frame
import proofs.«422054_j87522843558074_3_alg».proof.Proof.Model
import Idealize.ShloMosaic.Lib.Pipeline.Value
import Idealize.ShloMosaic.Lib.ValueLayout

set_option maxRecDepth 16384

noncomputable section

namespace Cert.Gcn.K

open Idealize.ShloMosaic Idealize.ShloMosaic.ValueIdx Idealize.ShloMosaic.TcCoe Idealize.SL.Sem Cert.KernelIdeal Cert.KernelIdeal.Gen
open Idealize.ShloMosaic.Pipeline (Dat Cfg Window)

namespace R1

/-! ## The body's arithmetic at one entry of a block -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index at output `(r, c)` and contraction index `k`: row `r` on axis 0. -/
theorem lhs_mm_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- and the contraction index on axis 1. -/
theorem lhs_mm_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
/-- The right operand index: the contraction index on axis 0, -/
theorem rhs_mm_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
/-- and column `c` on axis 1. -/
theorem rhs_mm_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The block product into a zero accumulator at `(r, c)`: the sum over the 64 contracted columns of the left
    operand's row `r` against the right operand's column `c`. -/
theorem mm_apply {φ₁ φ₂ : FTy} (x : FVec Ideal S5000x64 φ₁) (w : FVec Ideal S64x32 φ₂) (r : Fin 5000) (c : Fin 32) :
    FloatOps.matmul (F := Ideal) dot_S5000x64_S64x32_S5000x32_1_0_0_1_n_n none x w (constant (F := Ideal) S5000x32 .f32 0x00000000#32) (ix2 r c)
      = ∑ k : Fin 64, x (ix2 r k) * w (ix2 k c) := by
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 r c) ((ValueIdx.contrEquiv1 dot_S5000x64_S64x32_S5000x32_1_0_0_1_n_n 64 rfl rfl).symm k) = ix2 r k := funext fun a => Fin.ext (by
    match a with
    | ⟨0, _⟩ => exact lhs_mm_0 _ _
    | ⟨1, _⟩ => exact (lhs_mm_1 _ _).trans hk)
  have er : dot_S5000x64_S64x32_S5000x32_1_0_0_1_n_n.rhsIdx (ix2 r c) ((ValueIdx.contrEquiv1 dot_S5000x64_S64x32_S5000x32_1_0_0_1_n_n 64 rfl rfl).symm k) = ix2 k c := funext fun a => Fin.ext (by
    match a with
    | ⟨0, _⟩ => exact (rhs_mm_0 _ _).trans hk
    | ⟨1, _⟩ => exact rhs_mm_1 _ _)
  rw [el, er]

/-- What the body stores at `(r, c)` of its output block, from the five blocks it reads: the block's scale `d r`
    times the sum over `k` of the rectified combined entry `max (d r · (agg (r, k) + y (r, k)) + b k) 0` against `w (k, c)`.
    The rounding of both product operands to bf16 is the identity on the extended reals, and the zero the maximum is taken
    against is the real number 0. -/
theorem pay_apply (d : FVec Ideal S5000x1 .f32) (agg y : FVec Ideal S5000x64 .f32) (b : FVec Ideal S1x64 .f32)
    (w : FVec Ideal S64x32 .f32) (r : Fin 5000) (c : Fin 32) :
    k1_pay1 (F := Ideal) d agg y b w (ix2 r c)
      = d (ix2 r (0 : Fin 1)) * ∑ k : Fin 64, max (d (ix2 r (0 : Fin 1)) * (agg (ix2 r k) + y (ix2 r k)) + b (ix2 (0 : Fin 1) k)) 0 * w (ix2 k c) := by
  unfold k1_pay1
  simp only [shapeCast_self]
  rw [mulf_apply]
  refine congrArg₂ (· * ·) (broadcastTo_a1_ab_apply d _ r c) ?_
  refine (mm_apply _ _ r c).trans ?_
  refine Finset.sum_congr rfl fun k _ => ?_
  rw [truncf_apply, truncf_apply, maximumf_apply, addf_apply, mulf_apply, addf_apply, broadcast_apply,
    broadcastTo_a1_ab_apply, broadcastTo_1b_ab_apply]
  show max _ (Ideal.ofBits .f32 0x00000000#32) * _ = _
  rw [Ideal.ofBits_zero_f32]

/-- The body's value at an entry of its output block is `proj2` of five whole arrays at the array entry that block entry
    is, whenever the five blocks are what block `n` reads off those arrays: rows `5000 n + r` of the aggregate, of the
    first layer's projection and of the scale column, and the whole bias row and weight matrix. -/
theorem block_eq (A Y : Arr2 100000 64) (D : Arr2 100000 1) (B : Arr2 1 64) (W : Arr2 64 32)
    (d : FVec Ideal S5000x1 .f32) (agg y : FVec Ideal S5000x64 .f32) (b : FVec Ideal S1x64 .f32) (w : FVec Ideal S64x32 .f32)
    (n : Nat)
    (hagg : ∀ (r : Fin 5000) (k : Fin 64) (i : S100000x64.Idx), (i 0).val = 5000 * n + r.val → (i 1).val = k.val → agg (ix2 r k) = A i)
    (hy : ∀ (r : Fin 5000) (k : Fin 64) (i : S100000x64.Idx), (i 0).val = 5000 * n + r.val → (i 1).val = k.val → y (ix2 r k) = Y i)
    (hd : ∀ (r : Fin 5000) (i : S100000x1.Idx), (i 0).val = 5000 * n + r.val → d (ix2 r (0 : Fin 1)) = D i)
    (hb : ∀ k : Fin 64, b (ix2 (0 : Fin 1) k) = B (ix2 (0 : Fin 1) k))
    (hw : ∀ (k : Fin 64) (c : Fin 32), w (ix2 k c) = W (ix2 k c))
    (j : S5000x32.Idx) (i : S100000x32.Idx) (hi0 : (i 0).val = 5000 * n + (j 0).val) (hi1 : (i 1).val = (j 1).val) :
    k1_pay1 (F := Ideal) d agg y b w j = proj2 A Y D B W i := by
  obtain ⟨r, c, rfl⟩ : ∃ (r : Fin 5000) (c : Fin 32), j = ix2 r c := ⟨j 0, j 1, eq_ix2 j⟩
  have hi0' : (i 0).val = 5000 * n + r.val := hi0
  have hi1' : (i 1).val = c.val := hi1
  have hc : i 1 = c := Fin.ext hi1'
  rw [pay_apply]
  unfold proj2 combine
  rw [hd r (ix2 (i 0) (0 : Fin 1)) hi0', hc]
  refine congrArg _ (Finset.sum_congr rfl fun k _ => ?_)
  rw [hagg r k (ix2 (i 0) k) hi0' rfl, hy r k (ix2 (i 0) k) hi0' rfl, hb k, hw k c]

/-! ## The blocks the body reads, as rows of the arrays -/

theorem hz2 : (![0, 0] : Fin 2 → Nat) = fun _ => 0 := funext fun a => by fin_cases a <;> rfl

/-- The index maps over the grid: at point `t` the three row-blocked inputs and the output sit at block row `t`, block
    column 0; the bias row and the weight matrix are their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The aggregate's block at point `t` is rows `5000 t …` of its array. -/
theorem blk0_apply (c : Dev nD) (t : Fin cfg1.N) (r : Fin 5000) (k : Fin 64) (i : S100000x64.Idx)
    (hi0 : (i 0).val = 5000 * t.val + r.val) (hi1 : (i 1).val = k.val) :
    (iblk1 V c 0 t : FVec Ideal S5000x64 .f32) (ix2 r k) = (V c (Pipeline.arrRef spec1 0) : Arr2 100000 64) i := by
  obtain ⟨e0, e1, -⟩ := idx_facts t
  unfold iblk1
  rw [View.read_apply]
  refine congrArg (V c (Pipeline.arrRef spec1 0)) (funext fun a => Fin.ext ?_)
  match a with
  | ⟨0, _⟩ => show win1_0.index t (0 : Fin 2) * 5000 + 1 * r.val = (i 0).val; rw [e0, hi0]; omega
  | ⟨1, _⟩ => show win1_0.index t (1 : Fin 2) * 64 + 1 * k.val = (i 1).val; rw [e1, hi1]; omega

/-- The first layer's projection's block at point `t` is rows `5000 t …` of its array. -/
theorem blk1_apply (c : Dev nD) (t : Fin cfg1.N) (r : Fin 5000) (k : Fin 64) (i : S100000x64.Idx)
    (hi0 : (i 0).val = 5000 * t.val + r.val) (hi1 : (i 1).val = k.val) :
    (iblk1 V c 1 t : FVec Ideal S5000x64 .f32) (ix2 r k) = (V c (Pipeline.arrRef spec1 1) : Arr2 100000 64) i := by
  obtain ⟨-, -, e0, e1, -⟩ := idx_facts t
  unfold iblk1
  rw [View.read_apply]
  refine congrArg (V c (Pipeline.arrRef spec1 1)) (funext fun a => Fin.ext ?_)
  match a with
  | ⟨0, _⟩ => show win1_1.index t (0 : Fin 2) * 5000 + 1 * r.val = (i 0).val; rw [e0, hi0]; omega
  | ⟨1, _⟩ => show win1_1.index t (1 : Fin 2) * 64 + 1 * k.val = (i 1).val; rw [e1, hi1]; omega

/-- The scale column's block at point `t` is entries `5000 t …` of the column. -/
theorem blk2_apply (c : Dev nD) (t : Fin cfg1.N) (r : Fin 5000) (i : S100000x1.Idx)
    (hi0 : (i 0).val = 5000 * t.val + r.val) :
    (iblk1 V c 2 t : FVec Ideal S5000x1 .f32) (ix2 r (0 : Fin 1)) = (V c (Pipeline.arrRef spec1 2) : Arr2 100000 1) i := by
  obtain ⟨-, -, -, -, e0, e1, -⟩ := idx_facts t
  have hi1 : (i 1).val < 1 := (i 1).isLt
  unfold iblk1
  rw [View.read_apply]
  refine congrArg (V c (Pipeline.arrRef spec1 2)) (funext fun a => Fin.ext ?_)
  match a with
  | ⟨0, _⟩ => show win1_2.index t (0 : Fin 2) * 5000 + 1 * r.val = (i 0).val; rw [e0, hi0]; omega
  | ⟨1, _⟩ => show win1_2.index t (1 : Fin 2) * 1 + 1 * (0 : Fin 1).val = (i 1).val; rw [e1]; show 0 * 1 + 1 * 0 = (i 1).val; omega

/-- The bias row's one block is the row. -/
theorem blk3_apply (c : Dev nD) (t : Fin cfg1.N) (k : Fin 64) :
    (iblk1 V c 3 t : FVec Ideal S1x64 .f32) (ix2 (0 : Fin 1) k) = (V c (Pipeline.arrRef spec1 3) : Arr2 1 64) (ix2 (0 : Fin 1) k) := by
  obtain ⟨-, -, -, -, -, -, e0, e1, -⟩ := idx_facts t
  unfold iblk1
  rw [View.read_apply]
  refine congrArg (V c (Pipeline.arrRef spec1 3)) (funext fun a => Fin.ext ?_)
  match a with
  | ⟨0, _⟩ => show win1_3.index t (0 : Fin 2) * 1 + 1 * (0 : Fin 1).val = (0 : Fin 1).val; rw [e0]; rfl
  | ⟨1, _⟩ => show win1_3.index t (1 : Fin 2) * 64 + 1 * k.val = k.val; rw [e1]; omega

/-- The weight matrix's one block is the matrix. -/
theorem blk4_apply (c : Dev nD) (t : Fin cfg1.N) (k : Fin 64) (q : Fin 32) :
    (iblk1 V c 4 t : FVec Ideal S64x32 .f32) (ix2 k q) = (V c (Pipeline.arrRef spec1 4) : Arr2 64 32) (ix2 k q) := by
  obtain ⟨-, -, -, -, -, -, -, -, e0, e1, -⟩ := idx_facts t
  unfold iblk1
  rw [View.read_apply]
  refine congrArg (V c (Pipeline.arrRef spec1 4)) (funext fun a => Fin.ext ?_)
  match a with
  | ⟨0, _⟩ => show win1_4.index t (0 : Fin 2) * 64 + 1 * k.val = k.val; rw [e0]; omega
  | ⟨1, _⟩ => show win1_4.index t (1 : Fin 2) * 32 + 1 * q.val = q.val; rw [e1]; omega

/-! ## From the blocks to the array -/

/-- What point `t` writes back is block `t` of `proj2` of the five arrays as the region finds them: entry `(r, c)` of the
    output block is entry `(5000 t + r, c)` of the array, and the body's value there reads exactly row `5000 t + r` of the
    row-blocked inputs. -/
theorem flushed_eq (c : Dev nD) (t : Fin cfg1.N) :
    (dat1 (F := Ideal) V c).flushed 5 t
      = ((cfg1.win 5).blk t).view.read (Elt Ideal)
          (proj2 (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S5000x1) hz2, View.ld_unit_zero (S := S1x64) hz2,
    View.ld_unit_zero (S := S64x32) hz2]
  obtain ⟨-, -, -, -, -, -, -, -, -, -, e0, e1⟩ := idx_facts t
  funext j
  refine block_eq (V c (Pipeline.arrRef spec1 0)) (V c (Pipeline.arrRef spec1 1)) (V c (Pipeline.arrRef spec1 2))
    (V c (Pipeline.arrRef spec1 3)) (V c (Pipeline.arrRef spec1 4))
    (iblk1 V c 2 t) (iblk1 V c 0 t) (iblk1 V c 1 t) (iblk1 V c 3 t) (iblk1 V c 4 t) t.val
    (fun r k i h0 h1 => blk0_apply V c t r k i h0 h1) (fun r k i h0 h1 => blk1_apply V c t r k i h0 h1)
    (fun r i h0 => blk2_apply V c t r i h0) (fun k => blk3_apply V c t k) (fun k q => blk4_apply V c t k q)
    j (((cfg1.win 5).blk t).view.emb j) ?_ ?_
  · show win1_5.index t (0 : Fin 2) * 5000 + 1 * (j 0).val = 5000 * t.val + (j 0).val
    rw [e0]; omega
  · show win1_5.index t (1 : Fin 2) * 32 + 1 * (j 1).val = (j 1).val
    rw [e1]; omega

/-- An entry of the output array is in point `t`'s block iff each coordinate is in the block's range on its axis. -/
theorem mem_blk (t : Fin cfg1.N) (i : S100000x32.Idx) :
    i ∈ ((cfg1.win 5).blk t).view.set
      ↔ ∀ a : Fin 2, win1_5.index t a * S5000x32.size a ≤ (i a).val ∧ (i a).val < win1_5.index t a * S5000x32.size a + S5000x32.size a := by
  show i ∈ ((View.whole main_v18).slice (win1_5.rect t)).set ↔ _
  rw [View.set_slice_whole, Rect.mem_set_unit]
  exact Iff.rfl

/-- Every entry of the output array is written back by some point: row `n` by point `n / 5000`. -/
theorem covered (i : S100000x32.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 32 := (i 1).isLt
  let t : Fin cfg1.N := ⟨(i 0).val / 5000, by rw [hN]; omega⟩
  have ht : t.val = (i 0).val / 5000 := rfl
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 32 ≤ (i 1).val ∧ (i 1).val < win1_5.index t (1 : Fin 2) * 32 + 32
    rw [e1]; omega

end R1

variable (V : (c : Dev nD) → (b : Ref sig .tc) → Buf (Elt Ideal) ((c : Thread nD τ).loc b))

/-- Region 1's output array after the whole grid: the blocks written back tile the array, and each is that block of
    `proj2` of the five arrays the region finds. -/
theorem arr1 (c : Dev nD) :
    (dat1 (F := Ideal) V c).arrAt 5 cfg1.N
      = proj2 (V c (Pipeline.arrRef spec1 0)) (V c (Pipeline.arrRef spec1 1)) (V c (Pipeline.arrRef spec1 2))
          (V c (Pipeline.arrRef spec1 3)) (V c (Pipeline.arrRef spec1 4)) := by
  exact (dat1 (F := Ideal) V c).arrAt_eq_of_cover 5 _ (fun t _ => R1.flushed_eq V c t) R1.covered

end Cert.Gcn.K

end
-- ==== Proof.KReg2.lean ====
/-
  The third kernel region as one whole-array function: its output array is the row-wise softmax of `combine` of the four
  arrays the region finds.

  The region's grid has 20 points; point `t` reads rows `5000 t … 5000 t + 4999` of the aggregated array, of the node
  features and of the scale column, and the whole bias row, and writes the same rows of the output. Within a block the body
  computes `v = d · (agg + hs) + b`, each row's lane maximum `M` (folded from `-∞`) and lane sum `Σ exp (v - M)`, and
  stores `exp (v - M) / Σ`. A row's maximum and sum range over the 32 lanes of that row alone, so what the body leaves at
  `(p, q)` of point `t`'s block is the row-wise softmax of the whole arrays' `combine` at `(5000 t + p, q)`; the 20 row blocks
  tile the output array (row `r` lies in block `r / 5000`), so after the grid the array is that softmax everywhere.
-/
import proofs.«422054_j87522843558074_3_alg».proof.Proof.Gen.KernelIdeal.Frame
import proofs.«422054_j87522843558074_3_alg».proof.Proof.Model
import Idealize.ShloMosaic.Lib.Pipeline.Value
import Idealize.ShloMosaic.Lib.ValueLayout

set_option maxRecDepth 16384

noncomputable section

namespace Cert.Gcn.K

open Idealize.ShloMosaic Idealize.ShloMosaic.ValueIdx Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

namespace R2

section Layout
variable {α : Type}

/-- A column `[a, 1]` broadcast over the lanes to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Over a `[a, b]` array reduced along its lanes, the source index over row `p` with lane `k` inserted is `(p, k)`. -/
theorem lift_lane {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => exact (h.lift_val (ix1 p) k _).trans rfl
  | ⟨1, _⟩ => exact (h.lift_val (ix1 p) k _).trans rfl

end Layout

section Payload

/-- The lane maximum of row `p` of a block, folded from `-∞`. -/
def blkMax (v : FVec Ideal S5000x32 .f32) (p : Fin 5000) : EReal :=
  (Finset.univ : Finset (Fin 32)).fold max (Ideal.ofBits .f32 0xFF800000#32) (fun c => v (ix2 p c))

/-- A `<maximumf>` reduction of a block along its lanes, at row `p`: the fold of `max` over the row. -/
theorem laneMax_apply (v : FVec Ideal S5000x32 .f32) (h : S5000x32.Reduces [1] S5000) (hφ : FKind.Formats .f32)
    (hacc : (0xFF800000#32 : BitVec 32) = FKind.maximumf.neutral .f32 hφ) (p : Fin 5000) :
    multiReduction (F := Ideal) .maximumf [1] S5000 v 0xFF800000#32 h hφ hacc (ix1 p) = blkMax v p :=
  (Ideal.multiReduction_maximumf_single v 0xFF800000#32 h hφ hacc (ix1 p)).trans
    (Finset.fold_congr fun k _ => congrArg v (lift_lane h p k))

/-- An `<add>` reduction of a block along its lanes, at row `p`: the sum over the row. -/
theorem laneSum_apply (e : FVec Ideal S5000x32 .f32) (h : S5000x32.Reduces [1] S5000) (hφ : FKind.Formats .f32)
    (hacc : (0x00000000#32 : BitVec 32) = FKind.add.neutral .f32 hφ) (p : Fin 5000) :
    multiReduction (F := Ideal) .add [1] S5000 e 0x00000000#32 h hφ hacc (ix1 p) = ∑ c : Fin 32, e (ix2 p c) :=
  (Ideal.multiReduction_add_single e 0x00000000#32 h hφ hacc (ix1 p)).trans
    (Finset.sum_congr rfl fun k _ => congrArg e (lift_lane h p k))

/-- A per-row statistic `[5000]` read as a column and broadcast over the lanes: at `(p, q)` it is the statistic of row `p`. -/
theorem rowStat_apply (r : FVec Ideal S5000 .f32) (hc : S5000.ShapeCasts S5000x1) (hb : S5000x1.Broadcasts S5000x32)
    (p : Fin 5000) (q : Fin 32) : broadcastTo S5000x32 (shapeCast S5000x1 r hc) hb (ix2 p q) = r (ix1 p) :=
  (broadcastTo_a1_ab_apply _ hb p q).trans (shapeCast_a_a1_apply r hc p 0)

/-- The block before the softmax: `d · (agg + hs) + b`, as the body computes it. -/
def preBlk (d : FVec Ideal S5000x1 .f32) (agg hs : FVec Ideal S5000x32 .f32) (b : FVec Ideal S1x32 .f32) : FVec Ideal S5000x32 .f32 :=
  addf (mulf (broadcastTo S5000x32 (shapeCast S5000x1 d shapeCasts_S5000x1_S5000x1) broadcasts_S5000x1_S5000x32)
      (addf (shapeCast S5000x32 agg shapeCasts_S5000x32_S5000x32) (shapeCast S5000x32 hs shapeCasts_S5000x32_S5000x32)))
    (broadcastTo S5000x32 (shapeCast S1x32 b shapeCasts_S1x32_S1x32) broadcasts_S1x32_S5000x32)

/-- The pre-softmax block at `(p, q)`: the scale of row `p` times the sum of the two feature entries, plus the bias of lane `q`. -/
theorem preBlk_apply (d : FVec Ideal S5000x1 .f32) (agg hs : FVec Ideal S5000x32 .f32) (b : FVec Ideal S1x32 .f32)
    (p : Fin 5000) (q : Fin 32) :
    preBlk d agg hs b (ix2 p q) = d (ix2 p 0) * (agg (ix2 p q) + hs (ix2 p q)) + b (ix2 0 q) := by
  unfold preBlk
  rw [shapeCast_self, shapeCast_self, shapeCast_self, shapeCast_self, addf_apply, mulf_apply, addf_apply,
    broadcastTo_a1_ab_apply, broadcastTo_1b_ab_apply]

/-- The row maximum, as a block. -/
def laneMaxB (v : FVec Ideal S5000x32 .f32) : FVec Ideal S5000x32 .f32 :=
  broadcastTo S5000x32 (shapeCast S5000x1 (multiReduction .maximumf [1] S5000 v 0xFF800000#32 reduces_S5000x32_S5000 (.inl rfl) rfl)
    shapeCasts_S5000_S5000x1) broadcasts_S5000x1_S5000x32

/-- The row sum, as a block. -/
def laneSumB (e : FVec Ideal S5000x32 .f32) : FVec Ideal S5000x32 .f32 :=
  broadcastTo S5000x32 (shapeCast S5000x1 (multiReduction .add [1] S5000 e 0x00000000#32 reduces_S5000x32_S5000 (.inl rfl) rfl)
    shapeCasts_S5000_S5000x1) broadcasts_S5000x1_S5000x32

/-- The exponential of a block less its row maxima. -/
def shifted (v : FVec Ideal S5000x32 .f32) : FVec Ideal S5000x32 .f32 := exp (subf v (laneMaxB v))

/-- The row-wise softmax of a block. -/
def softBlk (v : FVec Ideal S5000x32 .f32) : FVec Ideal S5000x32 .f32 := divf (shifted v) (laneSumB (shifted v))

theorem laneMaxB_apply (v : FVec Ideal S5000x32 .f32) (p : Fin 5000) (q : Fin 32) : laneMaxB v (ix2 p q) = blkMax v p :=
  (rowStat_apply _ _ _ p q).trans (laneMax_apply v _ _ _ p)

theorem laneSumB_apply (e : FVec Ideal S5000x32 .f32) (p : Fin 5000) (q : Fin 32) : laneSumB e (ix2 p q) = ∑ c : Fin 32, e (ix2 p c) :=
  (rowStat_apply _ _ _ p q).trans (laneSum_apply e _ _ _ p)

theorem shifted_apply (v : FVec Ideal S5000x32 .f32) (p : Fin 5000) (q : Fin 32) :
    shifted v (ix2 p q) = Ideal.exp (v (ix2 p q) - blkMax v p) := by
  show Ideal.exp (v (ix2 p q) - laneMaxB v (ix2 p q)) = _
  rw [laneMaxB_apply]

theorem softBlk_apply (v : FVec Ideal S5000x32 .f32) (p : Fin 5000) (q : Fin 32) :
    softBlk v (ix2 p q)
      = Ideal.div (Ideal.exp (v (ix2 p q) - blkMax v p)) (∑ c : Fin 32, Ideal.exp (v (ix2 p c) - blkMax v p)) := by
  show Ideal.div (shifted v (ix2 p q)) (laneSumB (shifted v) (ix2 p q)) = _
  rw [laneSumB_apply, shifted_apply]
  simp only [shifted_apply]

/-- The body's payload is the softmax of the pre-softmax block (the body's value names substituted). -/
theorem pay_eq (d : FVec Ideal S5000x1 .f32) (agg hs : FVec Ideal S5000x32 .f32) (b : FVec Ideal S1x32 .f32) :
    k2_pay1 (F := Ideal) d agg hs b = softBlk (preBlk d agg hs b) := rfl

end Payload

section Rows

/-- A block whose rows are rows `r p` of the four arrays: its softmax payload at `(p, q)` is the arrays' row-wise softmax of
    `combine` at `(r p, q)`. A row's maximum and sum range over that row's lanes only, so the other rows of the block never enter. -/
theorem pay_rows (A0 A1 : Arr2 100000 32) (A2 : Arr2 100000 1) (A3 : Arr2 1 32)
    (x0 x1 : FVec Ideal S5000x32 .f32) (x2 : FVec Ideal S5000x1 .f32) (x3 : FVec Ideal S1x32 .f32)
    (r : Fin 5000 → Fin 100000)
    (h0 : ∀ p q, x0 (ix2 p q) = A0 (ix2 (r p) q)) (h1 : ∀ p q, x1 (ix2 p q) = A1 (ix2 (r p) q))
    (h2 : ∀ p, x2 (ix2 p 0) = A2 (ix2 (r p) 0)) (h3 : ∀ q, x3 (ix2 0 q) = A3 (ix2 0 q))
    (p : Fin 5000) (q : Fin 32) :
    k2_pay1 (F := Ideal) x2 x0 x1 x3 (ix2 p q) = softmaxRows (combine A0 A1 A2 A3) (ix2 (r p) q) := by
  have hpre : ∀ q' : Fin 32, preBlk x2 x0 x1 x3 (ix2 p q') = combine A0 A1 A2 A3 (ix2 (r p) q') := by
    intro q'
    rw [preBlk_apply, h0, h1, h2, h3]
    rfl
  have hmax : blkMax (preBlk x2 x0 x1 x3) p = rowMax (combine A0 A1 A2 A3) (r p) :=
    Finset.fold_congr fun c _ => hpre c
  rw [pay_eq, softBlk_apply, hmax]
  simp only [hpre]
  rfl

end Rows

section Blocks

/-- A whole-buffer access starts at offset zero on both axes. -/
theorem hz : (![0, 0] : Fin 2 → Nat) = fun _ => 0 := funext fun a => by fin_cases a <;> rfl

/-- The region's index maps over the grid: the three row-blocked inputs and the output take block `(t, 0)` at point `t`,
    the bias row block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of point `t`'s block is row `5000 t + p` of the array. -/
def rowOf (t : Fin cfg2.N) (p : Fin 5000) : Fin 100000 :=
  ⟨5000 * t.val + p.val, by have ht : t.val < 20 := t.isLt; have := p.isLt; omega⟩

/-- The four arrays the region finds, at their literal types. -/
abbrev aggA (c : Dev nD) : Arr2 100000 32 := V c (Pipeline.arrRef spec2 0)
abbrev hsA (c : Dev nD) : Arr2 100000 32 := V c (Pipeline.arrRef spec2 1)
abbrev dA (c : Dev nD) : Arr2 100000 1 := V c (Pipeline.arrRef spec2 2)
abbrev bA (c : Dev nD) : Arr2 1 32 := V c (Pipeline.arrRef spec2 3)

/-- The four input blocks at point `t`, at their literal types. -/
abbrev aggB (c : Dev nD) (t : Fin cfg2.N) : FVec Ideal S5000x32 .f32 := iblk2 V c 0 t
abbrev hsB (c : Dev nD) (t : Fin cfg2.N) : FVec Ideal S5000x32 .f32 := iblk2 V c 1 t
abbrev dB (c : Dev nD) (t : Fin cfg2.N) : FVec Ideal S5000x1 .f32 := iblk2 V c 2 t
abbrev bB (c : Dev nD) (t : Fin cfg2.N) : FVec Ideal S1x32 .f32 := iblk2 V c 3 t

/-- Each input block is the rows `5000 t …` of its array (the bias block is the whole bias row): the block's coordinate on an
    axis is the block index times the block size plus the coordinate inside the block. -/
theorem aggB_apply (c : Dev nD) (t : Fin cfg2.N) (p : Fin 5000) (q : Fin 32) :
    aggB V c t (ix2 p q) = aggA V c (ix2 (rowOf t p) q) := by
  obtain ⟨e0, e1, -⟩ := idx_facts t
  show V c (Pipeline.arrRef spec2 0) (((cfg2.win 0).blk t).view.emb (ix2 p q)) = _
  refine congrArg (V c (Pipeline.arrRef spec2 0)) (funext fun a => Fin.ext ?_)
  match a with
  | ⟨0, _⟩ => show win2_0.index t (0 : Fin 2) * 5000 + 1 * p.val = 5000 * t.val + p.val; omega
  | ⟨1, _⟩ => show win2_0.index t (1 : Fin 2) * 32 + 1 * q.val = q.val; omega

theorem hsB_apply (c : Dev nD) (t : Fin cfg2.N) (p : Fin 5000) (q : Fin 32) :
    hsB V c t (ix2 p q) = hsA V c (ix2 (rowOf t p) q) := by
  obtain ⟨-, -, e0, e1, -⟩ := idx_facts t
  show V c (Pipeline.arrRef spec2 1) (((cfg2.win 1).blk t).view.emb (ix2 p q)) = _
  refine congrArg (V c (Pipeline.arrRef spec2 1)) (funext fun a => Fin.ext ?_)
  match a with
  | ⟨0, _⟩ => show win2_1.index t (0 : Fin 2) * 5000 + 1 * p.val = 5000 * t.val + p.val; omega
  | ⟨1, _⟩ => show win2_1.index t (1 : Fin 2) * 32 + 1 * q.val = q.val; omega

theorem dB_apply (c : Dev nD) (t : Fin cfg2.N) (p : Fin 5000) :
    dB V c t (ix2 p 0) = dA V c (ix2 (rowOf t p) 0) := by
  obtain ⟨-, -, -, -, e0, e1, -⟩ := idx_facts t
  show V c (Pipeline.arrRef spec2 2) (((cfg2.win 2).blk t).view.emb (ix2 p 0)) = _
  refine congrArg (V c (Pipeline.arrRef spec2 2)) (funext fun a => Fin.ext ?_)
  match a with
  | ⟨0, _⟩ => show win2_2.index t (0 : Fin 2) * 5000 + 1 * p.val = 5000 * t.val + p.val; omega
  | ⟨1, _⟩ => show win2_2.index t (1 : Fin 2) * 1 + 1 * 0 = 0; omega

theorem bB_apply (c : Dev nD) (t : Fin cfg2.N) (q : Fin 32) :
    bB V c t (ix2 0 q) = bA V c (ix2 0 q) := by
  obtain ⟨-, -, -, -, -, -, e0, e1, -⟩ := idx_facts t
  show V c (Pipeline.arrRef spec2 3) (((cfg2.win 3).blk t).view.emb (ix2 0 q)) = _
  refine congrArg (V c (Pipeline.arrRef spec2 3)) (funext fun a => Fin.ext ?_)
  match a with
  | ⟨0, _⟩ => show win2_3.index t (0 : Fin 2) * 1 + 1 * 0 = 0; omega
  | ⟨1, _⟩ => show win2_3.index t (1 : Fin 2) * 32 + 1 * q.val = q.val; omega

/-- The region's result as one function of the arrays it finds. -/
abbrev result (c : Dev nD) : Arr2 100000 32 := softmaxRows (combine (aggA V c) (hsA V c) (dA V c) (bA V c))

/-- What point `t` writes back is block `t` of `result`. -/
theorem flushed_eq (c : Dev nD) (t : Fin cfg2.N) :
    (dat2 (F := Ideal) V c).flushed 4 t = ((cfg2.win 4).blk t).view.read (Elt Ideal) (result V c) := by
  show (cfg2.win 4).cut (grid2.coords t) ((dat2 V c).after 4 t) = _
  rw [after2_4]
  unfold out2_4
  rw [View.canon_unit_zero hz]
  simp only [View.ld_unit_zero (S := S5000x32) hz, View.ld_unit_zero (S := S5000x1) hz, View.ld_unit_zero (S := S1x32) hz]
  obtain ⟨-, -, -, -, -, -, -, -, e0, e1⟩ := idx_facts t
  funext j
  obtain ⟨p, q, rfl⟩ : ∃ (p : Fin 5000) (q : Fin 32), j = ix2 p q := ⟨j 0, j 1, eq_ix2 j⟩
  show k2_pay1 (F := Ideal) (dB V c t) (aggB V c t) (hsB V c t) (bB V c t) (ix2 p q)
    = result V c (((cfg2.win 4).blk t).view.emb (ix2 p q))
  have hemb : ((cfg2.win 4).blk t).view.emb (ix2 p q) = ix2 (rowOf t p) q := by
    funext a; apply Fin.ext
    match a with
    | ⟨0, _⟩ => show win2_4.index t (0 : Fin 2) * 5000 + 1 * p.val = 5000 * t.val + p.val; omega
    | ⟨1, _⟩ => show win2_4.index t (1 : Fin 2) * 32 + 1 * q.val = q.val; omega
  rw [hemb]
  exact pay_rows (aggA V c) (hsA V c) (dA V c) (bA V c) (aggB V c t) (hsB V c t) (dB V c t) (bB V c t) (rowOf t)
    (aggB_apply V c t) (hsB_apply V c t) (dB_apply V c t) (bB_apply V c t) p q

/-- An index of the output array is in point `t`'s block iff each coordinate is in the block's range on its axis. -/
theorem mem_blk (t : Fin cfg2.N) (i : S100000x32.Idx) :
    i ∈ ((cfg2.win 4).blk t).view.set ↔ ∀ a : Fin 2, win2_4.index t a * S5000x32.size a ≤ (i a).val ∧ (i a).val < win2_4.index t a * S5000x32.size a + S5000x32.size a := by
  show i ∈ ((View.whole main_v24).slice (win2_4.rect t)).set ↔ _
  rw [View.set_slice_whole, Rect.mem_set_unit]
  exact Iff.rfl

/-- The 20 row blocks tile the output: row `r` lies in the block of point `r / 5000`. -/
theorem cover (i : S100000x32.Idx) :
    ∃ t : Fin cfg2.N, (cfg2.win 4).flush t = true ∧ i ∈ ((cfg2.win 4).blk t).view.set := by
  have hi0 : (i 0).val < 100000 := (i 0).isLt
  have hi1 : (i 1).val < 32 := (i 1).isLt
  let t : Fin cfg2.N := ⟨(i 0).val / 5000, by show (i 0).val / 5000 < 20; omega⟩
  obtain ⟨-, -, -, -, -, -, -, -, e0, e1⟩ := idx_facts t
  have ht : t.val = (i 0).val / 5000 := rfl
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 32 ≤ (i 1).val ∧ (i 1).val < win2_4.index t (1 : Fin 2) * 32 + 32; omega

end Blocks

end R2

open R2 in
theorem arr2 (c : Dev nD) :
    (dat2 (F := Ideal) V c).arrAt 4 cfg2.N
      = softmaxRows (combine (V c (Pipeline.arrRef spec2 0)) (V c (Pipeline.arrRef spec2 1)) (V c (Pipeline.arrRef spec2 2))
          (V c (Pipeline.arrRef spec2 3))) :=
  (dat2 (F := Ideal) V c).arrAt_eq_of_cover 4 (result V c) (fun t _ => flushed_eq V c t) cover

end Cert.Gcn.K

end
-- ==== Proof.Layer.lean ====
/-
  One graph-convolution layer over the extended reals: scaling every message by the product of the two endpoint scales and
  then summing is the same as scaling each source row first, summing, and scaling the sum by the destination's scale,
  provided every quantity is a real number (distributivity fails at the infinities).
-/
import proofs.«422054_j87522843558074_3_alg».proof.Proof.Model

noncomputable section

namespace Cert.Gcn

open Idealize.ShloMosaic

/-- The embedding of the reals into the extended reals commutes with finite sums: it is additive, so the statement follows
    by induction on the index set (the empty sum is zero on both sides). -/
private theorem coe_finsetSum {J : Type} (T : Finset J) (f : J → ℝ) :
    ∑ j ∈ T, ((f j : ℝ) : EReal) = ((∑ j ∈ T, f j : ℝ) : EReal) := by
  classical
  induction T using Finset.induction_on with
  | empty => rw [Finset.sum_empty, Finset.sum_empty, EReal.coe_zero]
  | insert a s ha ih => rw [Finset.sum_insert ha, Finset.sum_insert ha, ih, EReal.coe_add]

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  -- the sum of the two real witnesses is a witness, the embedding being additive
  obtain ⟨r, rfl⟩ := hx
  obtain ⟨s, rfl⟩ := hy
  exact ⟨r + s, (EReal.coe_add r s).symm⟩
theorem IsReal.mul {x y : EReal} (hx : IsReal x) (hy : IsReal y) : IsReal (x * y) := by
  -- the product of the two real witnesses is a witness, the embedding being multiplicative
  obtain ⟨r, rfl⟩ := hx
  obtain ⟨s, rfl⟩ := hy
  exact ⟨r * s, (EReal.coe_mul r s).symm⟩
theorem IsReal.max {x y : EReal} (hx : IsReal x) (hy : IsReal y) : IsReal (max x y) := by
  -- in a linear order the maximum is one of its two arguments
  rcases le_total x y with h | h
  · rw [max_eq_right h]; exact hy
  · rw [max_eq_left h]; exact hx
theorem IsReal.sum {J : Type} (T : Finset J) (f : J → EReal) (h : ∀ j ∈ T, IsReal (f j)) : IsReal (∑ j ∈ T, f j) := by
  -- induction on the index set: the empty sum is 0, and adding one real term keeps the sum real
  classical
  induction T using Finset.induction_on with
  | empty => rw [Finset.sum_empty]; exact IsReal.zero
  | insert a s ha ih =>
    rw [Finset.sum_insert ha]
    exact IsReal.add (h a (Finset.mem_insert_self a s))
      (ih fun j hj => h j (Finset.mem_insert_of_mem hj))

/-- The inverse square root of one plus a count is a real number. -/
theorem isReal_rsqrt_count {J : Type} (T : Finset J) : IsReal (Ideal.rsqrt ((0 + ∑ _j ∈ T, (1 : EReal)) + 1)) := by
  -- the sum of ones is the cardinality c of T, so the argument is the real number c + 1 > 0
  have hsum : ∑ _j ∈ T, (1 : EReal) = (((T.card : ℝ)) : EReal) := by
    have h1 : ∑ _j ∈ T, (1 : EReal) = ∑ _j ∈ T, (((1 : ℝ)) : EReal) :=
      Finset.sum_congr rfl fun _ _ => EReal.coe_one.symm
    rw [h1, coe_finsetSum, Finset.sum_const, nsmul_eq_mul, mul_one]
  have harg : (0 + ∑ _j ∈ T, (1 : EReal)) + 1 = (((T.card : ℝ) + 1 : ℝ) : EReal) := by
    rw [hsum, zero_add, EReal.coe_add, EReal.coe_one]
  have hpos : (0 : ℝ) < (T.card : ℝ) + 1 := by positivity
  -- at a positive real r the inverse square root is the real number (√r)⁻¹
  rw [harg, Ideal.rsqrt_coe, if_neg (not_lt.mpr hpos.le), if_neg hpos.ne']
  exact IsReal.coe _

/-- THE LAYER LAW. `T` the messages landing at one output element, `a j` message `j`'s source feature, `ds j` its source
    scale, `dd' j` its destination scale (equal to `dd` on `T`), `xwn` the element's own feature. -/
theorem layer_law {J : Type} (T : Finset J) (a ds dd' : J → EReal) (dd xwn b : EReal)
    (ha : ∀ j, IsReal (a j)) (hds : ∀ j, IsReal (ds j)) (hdd : IsReal dd) (hx : IsReal xwn)
    (hd' : ∀ j ∈ T, dd' j = dd) :
    dd * ((0 + ∑ j ∈ T, ds j * a j) + dd * xwn) + b
      = ((0 + ∑ j ∈ T, a j * (ds j * dd' j)) + (dd * dd) * xwn) + b := by
  -- real witnesses: ar j for a j, dsr j for ds j, ddr for dd, xr for xwn
  choose ar har using ha
  choose dsr hdsr using hds
  obtain ⟨ddr, rfl⟩ := hdd
  obtain ⟨xr, rfl⟩ := hx
  -- both sums are embedded real sums (on T the destination scale dd' j is dd)
  have h1 : ∑ j ∈ T, ds j * a j = ((∑ j ∈ T, dsr j * ar j : ℝ) : EReal) := by
    rw [← coe_finsetSum]
    exact Finset.sum_congr rfl fun j _ => by rw [har j, hdsr j, EReal.coe_mul]
  have h2 : ∑ j ∈ T, a j * (ds j * dd' j) = ((∑ j ∈ T, ar j * (dsr j * ddr) : ℝ) : EReal) := by
    rw [← coe_finsetSum]
    exact Finset.sum_congr rfl fun j hj => by
      rw [hd' j hj, har j, hdsr j, EReal.coe_mul, EReal.coe_mul]
  rw [h1, h2, zero_add, zero_add]
  -- the bias b (possibly infinite) is the same summand on both sides; the rest is an identity between real numbers
  congr 1
  rw [← EReal.coe_mul, ← EReal.coe_add, ← EReal.coe_mul, ← EReal.coe_mul, ← EReal.coe_mul, ← EReal.coe_add]
  congr 1
  -- in ℝ: distribute ddr over the sum, term by term, then commutativity and associativity
  rw [mul_add, Finset.mul_sum]
  congr 1
  · exact Finset.sum_congr rfl fun j _ => by ring
  · ring

/-- The layer's value is a real number when the bias is. -/
theorem layer_real {J : Type} (T : Finset J) (a ds : J → EReal) (dd xwn b : EReal)
    (ha : ∀ j, IsReal (a j)) (hds : ∀ j, IsReal (ds j)) (hdd : IsReal dd) (hx : IsReal xwn) (hb : IsReal b) :
    IsReal (dd * ((0 + ∑ j ∈ T, ds j * a j) + dd * xwn) + b) := by
  -- every operation in the expression (sum, product, finite sum) keeps real numbers real
  exact IsReal.add
    (IsReal.mul hdd
      (IsReal.add
        (IsReal.add IsReal.zero (IsReal.sum T _ fun j _ => IsReal.mul (hds j) (ha j)))
        (IsReal.mul hdd hx)))
    hb

end Cert.Gcn

end
-- ==== Proof.RefLayer1.lean ====
/-
  The reference's first layer, read index by index: its value `agg + d² · xW + b` with every message scaled by the product
  of its endpoint scales is `combine` of the aggregate of source-scaled rows.
-/
import proofs.«422054_j87522843558074_3_alg».proof.Proof.RefDefs
import proofs.«422054_j87522843558074_3_alg».proof.Proof.Layer
import Idealize.ShloMosaic.Lib.IdealHost

noncomputable section

namespace Cert.Gcn.Ref

open Idealize.ShloMosaic Idealize.ShloMosaic.ValueIdx Cert.ReferenceIdeal Cert.ReferenceIdeal.Read

/-! ## Indices by their coordinates -/

/-- The row coordinate of a two-axis index, a number below the first extent. -/
private def row {n0 n1 : Nat} (j : (⟨2, ![n0, n1]⟩ : Shape).Idx) : Fin n0 := j 0
/-- The column coordinate of a two-axis index, a number below the second extent. -/
private def col {n0 n1 : Nat} (j : (⟨2, ![n0, n1]⟩ : Shape).Idx) : Fin n1 := j 1
private theorem row_ix2 {n0 n1 : Nat} (a : Fin n0) (b : Fin n1) : row (ix2 a b) = a := rfl
private theorem col_ix2 {n0 n1 : Nat} (a : Fin n0) (b : Fin n1) : col (ix2 a b) = b := rfl
/-- Every two-axis index is `ix2` of a row and a column. -/
private theorem exists_ix2 {n0 n1 : Nat} (j : (⟨2, ![n0, n1]⟩ : Shape).Idx) :
    ∃ (a : Fin n0) (b : Fin n1), j = ix2 a b := ⟨j 0, j 1, eq_ix2 j⟩

/-! ## The accumulating scatter and the two stages that do not depend on the edges -/

/-- The accumulating scatter at an element: the operand's element plus the sum of the updates that land there. -/
private theorem scatterAdd_at {s si su : Shape} {w : Nat} (d : ScatterDims s si su) (v : FVec Ideal s .f32) (idx : IVec si w)
    (upd : FVec Ideal su .f32) (i : s.Idx) :
    Host.scatterAdd d v idx upd i = v i + ∑ j ∈ Finset.univ.filter (fun j => d.resultIdx? j idx = some i), upd j := rfl

/-- The projection `x W` at `(n, c)`: row `n` of `x` against column `c` of `W`. -/
private theorem v11_at (x : Arr2 100000 256) (w1 : Arr2 256 64) (n : Fin 100000) (c : Fin 64) :
    val_main_v11 (F := Ideal) x w1 (ix2 n c) = ∑ k : Fin 256, x (ix2 n k) * w1 (ix2 k c) := by
  rw [val_main_v11_apply]
  refine Finset.sum_congr rfl fun k _ => ?_
  have e1 : lidx_main_v11 (ix2 n c) k = ix2 n k := by
    funext a; match a with | ⟨0, _⟩ => rfl | ⟨1, _⟩ => rfl
  have e2 : ridx_main_v11 (ix2 n c) k = ix2 k c := by
    funext a; match a with | ⟨0, _⟩ => rfl | ⟨1, _⟩ => rfl
  rw [e1, e2]

/-- Every entry of the projection is a real number when the inputs are. -/
private theorem v11_real (x : Arr2 100000 256) (w1 : Arr2 256 64) (hx : ∀ i, IsReal (x i)) (hw : ∀ i, IsReal (w1 i))
    (n : Fin 100000) (c : Fin 64) : IsReal (val_main_v11 (F := Ideal) x w1 (ix2 n c)) := by
  rw [v11_at]
  exact IsReal.sum _ _ fun k _ => IsReal.mul (hx _) (hw _)

/-- The per-node scale is the inverse square root of one plus a count of edges, hence a real number. -/
private theorem v10_real (ei : IVec S2x1600000 32) (n : S100000.Idx) : IsReal (val_main_v10 (F := Ideal) ei n) := by
  have h5 : val_main_v5 (F := Ideal) n = 0 := by
    rw [val_main_v5_apply, val_main_cst_0_apply]; exact Ideal.ofBits_zero_f32
  have h4 : ∀ j, val_main_v4 (F := Ideal) j = 1 := fun j => by
    rw [val_main_v4_apply, val_main_cst_apply]; exact Ideal.ofBits_one_f32
  have h8 : val_main_v8 (F := Ideal) n = 1 := by
    rw [val_main_v8_apply, val_main_cst_1_apply]; exact Ideal.ofBits_one_f32
  rw [val_main_v10_apply, val_main_v9_apply, Ideal.hostUnary_rsqrt_def, Ideal.addf_def, h8]
  unfold val_main_v7
  rw [scatterAdd_at, h5, Finset.sum_congr rfl fun j _ => h4 j]
  exact isReal_rsqrt_count _

/-! ## The wrapped index columns -/

/-- The two wrapped source columns are the same array: both broadcast the same select of the same row of `ei`. -/
private theorem v17_eq_v32 (ei : IVec S2x1600000 32) : val_main_v17 (F := Ideal) ei = val_main_v32 (F := Ideal) ei := rfl

/-- A signed word that is not negative compares "less than zero" to the bit `0`. -/
private theorem slt_zero_of_nonneg (v : BitVec 32) (h : 0 ≤ v.toInt) : IntOp.cmpi .slt v 0#32 = 0#1 := by
  have h0 : (0#32 : BitVec 32).toInt = 0 := by decide
  have : v.slt 0#32 = false := by
    simp only [BitVec.slt, h0, decide_eq_false_iff_not, not_lt]; exact h
  unfold IntOp.cmpi
  simp only [this]
  rfl

/-- The raw destination word of edge `e`, as the scatter reads it. -/
private theorem v38_at (ei : IVec S2x1600000 32) (e : Fin 1600000) :
    val_main_v38 (F := Ideal) ei (ix2 e 0) = val_main_v3 (F := Ideal) ei (ix1 e) := by
  rw [val_main_v38_apply]
  exact congrArg _ (by funext a; match a with | ⟨0, _⟩ => rfl)

/-- The wrapped destination word of edge `e` is the raw word when the raw word is not negative. -/
private theorem v24_at_of_nonneg (ei : IVec S2x1600000 32) (e : Fin 1600000)
    (h : 0 ≤ (val_main_v3 (F := Ideal) ei (ix1 e)).toInt) :
    val_main_v24 (F := Ideal) ei (ix2 e 0) = val_main_v3 (F := Ideal) ei (ix1 e) := by
  have hi : idx_main_v24 (ix2 e (0 : Fin 1)) = ix1 e := by funext a; match a with | ⟨0, _⟩ => rfl
  rw [val_main_v24_apply, hi, val_main_v23_apply, val_main_v20_apply, val_main_v19_apply, val_main_c_3_apply,
    slt_zero_of_nonneg _ h, select_zero]

/-- An update that lands in row `n` has destination row `n`: the scatter reads the raw word signed and unclamped, so
    the word is `n` itself, the wrap leaves it (it is not negative) and the clamp is the identity on `[0, N)`. -/
private theorem dst_row_of_lands (ei : IVec S2x1600000 32) (j : S1600000x64.Idx) (i : S100000x64.Idx)
    (h : scatter_S100000x64_S1600000x1_S1600000x64_1_0_0_1.resultIdx? j (val_main_v38 (F := Ideal) ei) = some i) :
    crow 100000 (by decide) (val_main_v24 (F := Ideal) ei (ix2 (row j) 0)) = row i := by
  rw [scatter64_eq] at h
  have hrow : (val_main_v38 (F := Ideal) ei (ix2 (row j) 0)).toInt = ((row i).val : Int) :=
    (scatterRows_resultIdx _ _ j i h).1
  rw [v38_at] at hrow
  have hlt : ((row i).val : Int) < 100000 := by have := (row i).isLt; omega
  have h0 : 0 ≤ (val_main_v3 (F := Ideal) ei (ix1 (row j))).toInt := by rw [hrow]; omega
  rw [v24_at_of_nonneg ei (row j) h0]
  apply Fin.ext
  have := crow_val_of_range (N := 100000) (by decide) (val_main_v3 (F := Ideal) ei (ix1 (row j))) h0
    (by rw [hrow]; exact hlt)
  omega

/-! ## The gathers -/

/-- The source scale of edge `e`. -/
private theorem v18_at (ei : IVec S2x1600000 32) (e : Fin 1600000) :
    val_main_v18 (F := Ideal) ei (ix1 e)
      = val_main_v10 (F := Ideal) ei (ix1 (crow 100000 (by decide) (val_main_v32 (F := Ideal) ei (ix2 e 0)))) := by
  unfold val_main_v18
  rw [gatherVec_eq, v17_eq_v32]
  exact gatherVec_apply (by decide) _ _ _ (ix1 e)

/-- The destination scale of edge `e`. -/
private theorem v25_at (ei : IVec S2x1600000 32) (e : Fin 1600000) :
    val_main_v25 (F := Ideal) ei (ix1 e)
      = val_main_v10 (F := Ideal) ei (ix1 (crow 100000 (by decide) (val_main_v24 (F := Ideal) ei (ix2 e 0)))) := by
  unfold val_main_v25
  rw [gatherVec_eq]
  exact gatherVec_apply (by decide) _ _ _ (ix1 e)

/-- The source feature row of edge `e`, at column `c`. -/
private theorem v33_at (x : Arr2 100000 256) (ei : IVec S2x1600000 32) (w1 : Arr2 256 64) (e : Fin 1600000) (c : Fin 64) :
    val_main_v33 (F := Ideal) x ei w1 (ix2 e c)
      = val_main_v11 (F := Ideal) x w1
          (ix2 (crow 100000 (by decide) (val_main_v32 (F := Ideal) ei (ix2 e 0))) c) := by
  unfold val_main_v33
  rw [gather64_eq]
  exact gatherRows_apply (by decide) _ _ _ (ix2 e c)

/-- Message `(e, c)`: the source feature times the product of the two endpoint scales. -/
private theorem v36_at (x : Arr2 100000 256) (ei : IVec S2x1600000 32) (w1 : Arr2 256 64) (e : Fin 1600000) (c : Fin 64) :
    val_main_v36 (F := Ideal) x ei w1 (ix2 e c)
      = val_main_v11 (F := Ideal) x w1
          (ix2 (crow 100000 (by decide) (val_main_v32 (F := Ideal) ei (ix2 e 0))) c)
        * (val_main_v10 (F := Ideal) ei (ix1 (crow 100000 (by decide) (val_main_v32 (F := Ideal) ei (ix2 e 0))))
          * val_main_v10 (F := Ideal) ei (ix1 (crow 100000 (by decide) (val_main_v24 (F := Ideal) ei (ix2 e 0))))) := by
  have hi : idx_main_v34 (idx_main_v35 (ix2 e c)) = ix1 e := by funext a; match a with | ⟨0, _⟩ => rfl
  rw [val_main_v36_apply, Ideal.mulf_def, v33_at, val_main_v35_apply, val_main_v34_apply, hi, val_main_v26_apply,
    Ideal.mulf_def, v18_at, v25_at]

/-! ## The stages after the scatter -/

/-- The zero array the scatter accumulates into. -/
private theorem v37_at (i : S100000x64.Idx) : val_main_v37 (F := Ideal) i = 0 := by
  rw [val_main_v37_apply, val_main_cst_7_apply]; exact Ideal.ofBits_zero_f32

/-- The self term: the squared scale of the node times its own feature. -/
private theorem v43_at (x : Arr2 100000 256) (ei : IVec S2x1600000 32) (w1 : Arr2 256 64) (n : Fin 100000) (c : Fin 64) :
    val_main_v43 (F := Ideal) x ei w1 (ix2 n c)
      = (val_main_v10 (F := Ideal) ei (ix1 n) * val_main_v10 (F := Ideal) ei (ix1 n))
        * val_main_v11 (F := Ideal) x w1 (ix2 n c) := by
  have hi : idx_main_v41 (idx_main_v42 (ix2 n c)) = ix1 n := by funext a; match a with | ⟨0, _⟩ => rfl
  rw [val_main_v43_apply, Ideal.mulf_def, val_main_v42_apply, val_main_v41_apply, hi, val_main_v40_apply,
    Ideal.mulf_def]

/-- The bias row, broadcast over the nodes. -/
private theorem v46_at (b1 : Arr1 64) (n : Fin 100000) (c : Fin 64) :
    val_main_v46 (F := Ideal) b1 (ix2 n c) = b1 (ix1 c) := by
  rw [val_main_v46_apply, val_main_v45_apply]
  exact congrArg _ (by funext a; match a with | ⟨0, _⟩ => rfl)

/-- The reference's first layer at an element: aggregate, self term and bias. -/
private theorem v47_at (x : Arr2 100000 256) (ei : IVec S2x1600000 32) (w1 : Arr2 256 64) (b1 : Arr1 64)
    (n : Fin 100000) (c : Fin 64) :
    val_main_v47 (F := Ideal) x ei w1 b1 (ix2 n c)
      = (Host.scatterAdd (F := Ideal) (φ := .f32) scatter_S100000x64_S1600000x1_S1600000x64_1_0_0_1
            (val_main_v37 (F := Ideal)) (val_main_v38 (F := Ideal) ei) (val_main_v36 (F := Ideal) x ei w1) (ix2 n c)
          + (val_main_v10 (F := Ideal) ei (ix1 n) * val_main_v10 (F := Ideal) ei (ix1 n))
            * val_main_v11 (F := Ideal) x w1 (ix2 n c))
        + b1 (ix1 c) := by
  rw [val_main_v47_apply, Ideal.addf_def, val_main_v44_apply, Ideal.addf_def, v43_at, v46_at]
  rfl

/-- Every entry of the reference's first layer (before the rectifier) is a real number when the inputs are. -/
theorem layer1_real (x : Arr2 100000 256) (ei : IVec S2x1600000 32) (w1 : Arr2 256 64) (b1 : Arr1 64)
    (hx : ∀ i, IsReal (x i)) (hw : ∀ i, IsReal (w1 i)) (hb : ∀ i, IsReal (b1 i)) :
    ∀ i, IsReal (val_main_v47 (F := Ideal) x ei w1 b1 i) := by
  intro i
  obtain ⟨n, c, rfl⟩ := exists_ix2 i
  rw [v47_at, scatterAdd_at, v37_at]
  -- a sum of real messages, plus a product of real scales and a real feature, plus a real bias
  refine IsReal.add (IsReal.add (IsReal.add IsReal.zero (IsReal.sum _ _ fun j _ => ?_))
    (IsReal.mul (IsReal.mul (v10_real ei _) (v10_real ei _)) (v11_real x w1 hx hw n c))) (hb _)
  obtain ⟨e, c', rfl⟩ := exists_ix2 j
  rw [v36_at]
  exact IsReal.mul (v11_real x w1 hx hw _ c') (IsReal.mul (v10_real ei _) (v10_real ei _))

/-- For ANY update array `upd` whose row `e` is the source-scaled projection's row `clamp src[e]`, aggregating it and
    combining is the reference's first layer. -/
theorem layer1 (x : Arr2 100000 256) (ei : IVec S2x1600000 32) (w1 : Arr2 256 64) (b1 : Arr1 64)
    (hx : ∀ i, IsReal (x i)) (hw : ∀ i, IsReal (w1 i))
    (upd : Arr2 1600000 64)
    (hupd : ∀ j, upd j = proj1 x w1 (dscale ei)
      (ix2 (crow 100000 (by decide) (val_main_v32 (F := Ideal) ei (ix2 (j 0) 0))) (j 1))) :
    combine (Host.scatterAdd scatter_S100000x64_S1600000x1_S1600000x64_1_0_0_1 (val_main_v37 (F := Ideal))
        (val_main_v38 (F := Ideal) ei) upd) (proj1 x w1 (dscale ei)) (dscale ei) (brow b1)
      = val_main_v47 (F := Ideal) x ei w1 b1 := by
  funext i
  obtain ⟨n, c, rfl⟩ := exists_ix2 i
  rw [v47_at]
  -- the left side at `(n, c)`: `d n · (agg (n, c) + d n · (x W) (n, c)) + b c`
  show val_main_v10 (F := Ideal) ei (ix1 n)
        * (Host.scatterAdd (F := Ideal) (φ := .f32) scatter_S100000x64_S1600000x1_S1600000x64_1_0_0_1
              (val_main_v37 (F := Ideal)) (val_main_v38 (F := Ideal) ei) upd (ix2 n c)
            + val_main_v10 (F := Ideal) ei (ix1 n) * ∑ k : Fin 256, x (ix2 n k) * w1 (ix2 k c))
        + b1 (ix1 c) = _
  rw [← v11_at x w1 n c, scatterAdd_at, scatterAdd_at, v37_at]
  -- update `j` is the source scale times the source feature …
  have hL : ∀ j : S1600000x64.Idx, upd j
      = val_main_v10 (F := Ideal) ei (ix1 (crow 100000 (by decide) (val_main_v32 (F := Ideal) ei (ix2 (row j) 0))))
        * val_main_v11 (F := Ideal) x w1
            (ix2 (crow 100000 (by decide) (val_main_v32 (F := Ideal) ei (ix2 (row j) 0))) (col j)) := by
    intro j
    rw [v11_at]
    exact hupd j
  -- … and message `j` is the source feature times the product of the source and destination scales
  have hR : ∀ j : S1600000x64.Idx, val_main_v36 (F := Ideal) x ei w1 j
      = val_main_v11 (F := Ideal) x w1
            (ix2 (crow 100000 (by decide) (val_main_v32 (F := Ideal) ei (ix2 (row j) 0))) (col j))
        * (val_main_v10 (F := Ideal) ei (ix1 (crow 100000 (by decide) (val_main_v32 (F := Ideal) ei (ix2 (row j) 0))))
          * val_main_v10 (F := Ideal) ei
              (ix1 (crow 100000 (by decide) (val_main_v24 (F := Ideal) ei (ix2 (row j) 0))))) := by
    intro j
    obtain ⟨e, c', rfl⟩ := exists_ix2 j
    rw [v36_at, row_ix2, col_ix2]
  rw [Finset.sum_congr rfl (fun j _ => hL j), Finset.sum_congr rfl (fun j _ => hR j)]
  -- the layer law, every quantity a real number, the destination scale of a message that lands in row `n` being `d n`
  refine layer_law _
    (fun j => val_main_v11 (F := Ideal) x w1
      (ix2 (crow 100000 (by decide) (val_main_v32 (F := Ideal) ei (ix2 (row j) 0))) (col j)))
    (fun j => val_main_v10 (F := Ideal) ei
      (ix1 (crow 100000 (by decide) (val_main_v32 (F := Ideal) ei (ix2 (row j) 0)))))
    (fun j => val_main_v10 (F := Ideal) ei
      (ix1 (crow 100000 (by decide) (val_main_v24 (F := Ideal) ei (ix2 (row j) 0)))))
    _ _ _ (fun j => v11_real x w1 hx hw _ _) (fun j => v10_real ei _) (v10_real ei _) (v11_real x w1 hx hw n c) ?_
  intro j hj
  have h := (Finset.mem_filter.mp hj).2
  show val_main_v10 (F := Ideal) ei
      (ix1 (crow 100000 (by decide) (val_main_v24 (F := Ideal) ei (ix2 (row j) 0))))
    = val_main_v10 (F := Ideal) ei (ix1 n)
  rw [dst_row_of_lands ei j (ix2 n c) h, row_ix2]

end Cert.Gcn.Ref

end
-- ==== Proof.RefLayer2.lean ====
/-
  The reference's second layer, read index by index, over the rectified first layer.
-/
import proofs.«422054_j87522843558074_3_alg».proof.Proof.RefDefs
import proofs.«422054_j87522843558074_3_alg».proof.Proof.Layer
import Idealize.ShloMosaic.Lib.IdealHost

noncomputable section

namespace Cert.Gcn.Ref

open Idealize.ShloMosaic Idealize.ShloMosaic.ValueIdx Cert.ReferenceIdeal Cert.ReferenceIdeal.Read

/-! The reference's stages read at one index, and the layer law with its per-message products left abstract. -/
namespace Layer2Aux

/-- A row scatter-add into a 32-column array, read at an index: the operand's element plus the sum of the updates
    that land on it. -/
theorem scatter32_at (x0 : Arr2 100000 32) (idx : IVec S1600000x1 32) (upd : Arr2 1600000 32) (i : S100000x32.Idx) :
    Host.scatterAdd scatter_S100000x32_S1600000x1_S1600000x32_1_0_0_1 x0 idx upd i
      = x0 i + ∑ j ∈ Finset.univ.filter
          (fun j => scatter_S100000x32_S1600000x1_S1600000x32_1_0_0_1.resultIdx? j idx = some i), upd j := rfl

/-- The zero array the aggregation starts from reads the real number zero. -/
theorem v75_at (i : S100000x32.Idx) : val_main_v75 (F := Ideal) i = 0 := by
  rw [val_main_v75_apply, val_main_cst_14_apply, Ideal.ofBits_def, Ideal.ofBits_zero_f32]

/-- A scatter-add into a one-axis array, read at an index: the operand's element plus the sum of the updates that land
    on it. -/
theorem scatter1_at (x0 : FVec Ideal S100000 .f32) (idx : IVec S1600000x1 32) (upd : FVec Ideal S1600000 .f32)
    (i : S100000.Idx) :
    Host.scatterAdd scatter_S100000_S1600000x1_S1600000_n_0_0_1 x0 idx upd i
      = x0 i + ∑ j ∈ Finset.univ.filter
          (fun j => scatter_S100000_S1600000x1_S1600000_n_0_0_1.resultIdx? j idx = some i), upd j := rfl

/-- Every entry of the node scale is a real number: the inverse square root of one plus an in-degree count (zero plus
    a sum of ones over the edges that end at the node). -/
theorem v10_real (ei : IVec S2x1600000 32) (i : S100000.Idx) : IsReal (val_main_v10 (F := Ideal) ei i) := by
  rw [val_main_v10_apply, val_main_v9_apply, val_main_v8_apply, val_main_cst_1_apply]
  unfold val_main_v7
  rw [scatter1_at]
  simp only [val_main_v5_apply, val_main_cst_0_apply, val_main_v4_apply, val_main_cst_apply, Ideal.hostUnary_rsqrt_def,
    Ideal.addf_def, Ideal.ofBits_def, Ideal.ofBits_zero_f32, Ideal.ofBits_one_f32]
  exact isReal_rsqrt_count _

/-- The second projection `max v 0 · W2` of the reference, read at an index as the sum over the 64 hidden features. -/
theorem v49_at (x : Arr2 100000 256) (ei : IVec S2x1600000 32) (w1 : Arr2 256 64) (b1 : Arr1 64) (w2 : Arr2 64 32)
    (i : S100000x32.Idx) :
    val_main_v49 (F := Ideal) x ei w1 b1 w2 i
      = ∑ k : Fin 64, max (val_main_v47 (F := Ideal) x ei w1 b1 (ix2 (i 0) k)) 0 * w2 (ix2 k (i 1)) := by
  rw [val_main_v49_apply]
  refine Finset.sum_congr rfl fun k _ => ?_
  have e1 : lidx_main_v49 i k = (ix2 (i 0) k : S100000x64.Idx) := by
    funext a; match a with | ⟨0, _⟩ => rfl | ⟨1, _⟩ => rfl
  have e2 : ridx_main_v49 i k = (ix2 k (i 1) : S64x32.Idx) := by
    funext a; match a with | ⟨0, _⟩ => rfl | ⟨1, _⟩ => rfl
  rw [val_main_v48_apply, val_main_call0_v0_apply, val_main_call0_cst_apply, Ideal.maximumf_def, Ideal.ofBits_def,
    Ideal.ofBits_zero_f32, e1, e2]

/-- The second projection's entries are real numbers when the first layer's and the weights' are. -/
theorem v49_real (x : Arr2 100000 256) (ei : IVec S2x1600000 32) (w1 : Arr2 256 64) (b1 : Arr1 64) (w2 : Arr2 64 32)
    (h47 : ∀ i, IsReal (val_main_v47 (F := Ideal) x ei w1 b1 i)) (hw2 : ∀ i, IsReal (w2 i)) (i : S100000x32.Idx) :
    IsReal (val_main_v49 (F := Ideal) x ei w1 b1 w2 i) := by
  rw [v49_at]
  exact IsReal.sum _ _ fun k _ => IsReal.mul (IsReal.max (h47 _) IsReal.zero) (hw2 _)

/-- The source-scaled second projection at an index: the node's scale times the projection's entry. -/
theorem proj2v_at (x : Arr2 100000 256) (ei : IVec S2x1600000 32) (w1 : Arr2 256 64) (b1 : Arr1 64) (w2 : Arr2 64 32)
    (i : S100000x32.Idx) :
    proj2v (val_main_v47 (F := Ideal) x ei w1 b1) (dscale ei) w2 i
      = val_main_v10 (F := Ideal) ei (ix1 (i 0)) * val_main_v49 (F := Ideal) x ei w1 b1 w2 i := by
  rw [v49_at]; rfl

/-- The wrapped source index is computed twice by the reference, by the same operations. -/
theorem v55_eq_v70 (ei : IVec S2x1600000 32) : val_main_v55 (F := Ideal) ei = val_main_v70 (F := Ideal) ei := rfl

/-- The gathered source rows of the second projection: row `e` is row `clamp src[e]`. -/
theorem v71_at (x : Arr2 100000 256) (ei : IVec S2x1600000 32) (w1 : Arr2 256 64) (b1 : Arr1 64) (w2 : Arr2 64 32)
    (j : S1600000x32.Idx) :
    val_main_v71 (F := Ideal) x ei w1 b1 w2 j
      = val_main_v49 (F := Ideal) x ei w1 b1 w2
          (ix2 (crow 100000 (by decide) (val_main_v70 (F := Ideal) ei (ix2 (j 0) 0))) (j 1)) := by
  unfold val_main_v71
  rw [gather32_eq]
  exact gatherRows_apply (by decide) _ _ _ j

/-- The per-edge scale, broadcast over the 32 columns: the source's scale times the destination's. -/
theorem v73_at (ei : IVec S2x1600000 32) (j : S1600000x32.Idx) :
    val_main_v73 (F := Ideal) ei j
      = val_main_v10 (F := Ideal) ei (ix1 (crow 100000 (by decide) (val_main_v70 (F := Ideal) ei (ix2 (j 0) 0))))
        * val_main_v10 (F := Ideal) ei (ix1 (crow 100000 (by decide) (val_main_v62 (F := Ideal) ei (ix2 (j 0) 0)))) := by
  have e : idx_main_v72 (idx_main_v73 j) = (ix1 (j 0) : S1600000.Idx) := by
    funext a; match a with | ⟨0, _⟩ => rfl
  rw [val_main_v73_apply, val_main_v72_apply, val_main_v64_apply, Ideal.mulf_def, e]
  unfold val_main_v56 val_main_v63
  rw [gatherVec_eq, gatherVec_apply (by decide), gatherVec_apply (by decide), v55_eq_v70]

/-- A signed word that is not negative is not below zero: the wrap test of a node number in range is the bit `0`. -/
theorem cmpi_slt_zero_of_nonneg (w : BitVec 32) (h : 0 ≤ w.toInt) : IntOp.cmpi .slt w 0#32 = 0#1 := by
  have hs : w.slt 0#32 = false := by
    rw [BitVec.slt, decide_eq_false_iff_not]
    simpa using h
  unfold IntOp.cmpi
  simp only [hs]
  rfl

/-- A message that lands on row `n` has destination word `n`: the wrap leaves it and the clamp is the identity, so the
    destination scale the reference gathers for it is row `n`'s. -/
theorem dst_row (ei : IVec S2x1600000 32) (j : S1600000x32.Idx) (i : S100000x32.Idx)
    (h : scatter_S100000x32_S1600000x1_S1600000x32_1_0_0_1.resultIdx? j (val_main_v76 (F := Ideal) ei) = some i) :
    crow 100000 (by decide) (val_main_v62 (F := Ideal) ei (ix2 (j 0) 0)) = i 0 := by
  rw [scatter32_eq] at h
  obtain ⟨h0, _⟩ := scatterRows_resultIdx _ _ j i h
  have e76 : idx_main_v76 (ix2 (j 0) 0) = (ix1 (j 0) : S1600000.Idx) := by
    funext a; match a with | ⟨0, _⟩ => rfl
  have e62 : idx_main_v62 (ix2 (j 0) 0) = (ix1 (j 0) : S1600000.Idx) := by
    funext a; match a with | ⟨0, _⟩ => rfl
  rw [val_main_v76_apply, e76] at h0
  have hlt : ((i 0).val : Int) < 100000 := by have := idx2_lt0 i; omega
  have hnn : 0 ≤ (val_main_v3 (F := Ideal) ei (ix1 (j 0))).toInt := by rw [h0]; exact Int.natCast_nonneg _
  rw [val_main_v62_apply, e62, val_main_v61_apply, val_main_v58_apply, val_main_v57_apply, val_main_c_10_apply,
    cmpi_slt_zero_of_nonneg _ hnn, select_zero]
  refine Fin.ext ?_
  have hc := crow_val_of_range (N := 100000) (by decide) (val_main_v3 (F := Ideal) ei (ix1 (j 0))) hnn (by rw [h0]; exact hlt)
  rw [h0] at hc
  exact_mod_cast hc

/-- The layer law with the two per-message products left abstract: if each update is `ds · a` and each reference message is
    `a · (ds · dd')`, the two sides of the layer agree. -/
theorem layer2_alg {J : Type} (T : Finset J) (u m a ds dd' : J → EReal) (dd xwn b : EReal)
    (hu : ∀ j, u j = ds j * a j) (hm : ∀ j, m j = a j * (ds j * dd' j))
    (ha : ∀ j, IsReal (a j)) (hds : ∀ j, IsReal (ds j)) (hdd : IsReal dd) (hx : IsReal xwn)
    (hd' : ∀ j ∈ T, dd' j = dd) :
    dd * ((0 + ∑ j ∈ T, u j) + dd * xwn) + b = ((0 + ∑ j ∈ T, m j) + (dd * dd) * xwn) + b := by
  rw [Finset.sum_congr rfl (fun j _ => hu j), Finset.sum_congr rfl (fun j _ => hm j)]
  exact layer_law T a ds dd' dd xwn b ha hds hdd hx hd'

/-- `combine` at an index. -/
theorem combine_at (agg y : Arr2 100000 32) (d : Arr2 100000 1) (b : Arr2 1 32) (i : (⟨2, ![100000, 32]⟩ : Shape).Idx) :
    combine agg y d b i = d (ix2 (i 0) 0) * (agg i + y i) + b (ix2 0 (i 1)) := rfl

/-- The reference's second layer at an index: the aggregated messages, plus the squared scale times the node's own
    projection, plus the bias. -/
theorem v85_at (x : Arr2 100000 256) (ei : IVec S2x1600000 32) (w1 : Arr2 256 64) (b1 : Arr1 64) (w2 : Arr2 64 32)
    (b2 : Arr1 32) (i : S100000x32.Idx) :
    val_main_v85 (F := Ideal) x ei w1 b1 w2 b2 i
      = ((0 + ∑ j ∈ Finset.univ.filter
            (fun j => scatter_S100000x32_S1600000x1_S1600000x32_1_0_0_1.resultIdx? j (val_main_v76 (F := Ideal) ei) = some i),
            val_main_v74 (F := Ideal) x ei w1 b1 w2 j)
          + (val_main_v10 (F := Ideal) ei (ix1 (i 0)) * val_main_v10 (F := Ideal) ei (ix1 (i 0)))
            * val_main_v49 (F := Ideal) x ei w1 b1 w2 i)
        + b2 (ix1 (i 1)) := by
  have e80 : idx_main_v79 (idx_main_v80 i) = (ix1 (i 0) : S100000.Idx) := by
    funext a; match a with | ⟨0, _⟩ => rfl
  have e84 : idx_main_v83 (idx_main_v84 i) = (ix1 (i 1) : S32.Idx) := by
    funext a; match a with | ⟨0, _⟩ => rfl
  rw [val_main_v85_apply, val_main_v82_apply, val_main_v84_apply, val_main_v83_apply, e84, val_main_v81_apply,
    val_main_v80_apply, val_main_v79_apply, e80, val_main_v78_apply]
  unfold val_main_v77
  rw [scatter32_at, v75_at]
  rfl

end Layer2Aux

/-- For ANY update array `upd` whose row `e` is the source-scaled second projection's row `clamp src[e]`, aggregating it
    and combining is the reference's second layer (the value the softmax is taken of). -/
theorem layer2 (x : Arr2 100000 256) (ei : IVec S2x1600000 32) (w1 : Arr2 256 64) (b1 : Arr1 64) (w2 : Arr2 64 32) (b2 : Arr1 32)
    (h47 : ∀ i, IsReal (val_main_v47 (F := Ideal) x ei w1 b1 i)) (hw2 : ∀ i, IsReal (w2 i))
    (upd : Arr2 1600000 32)
    (hupd : ∀ j, upd j = proj2v (val_main_v47 (F := Ideal) x ei w1 b1) (dscale ei) w2
      (ix2 (crow 100000 (by decide) (val_main_v70 (F := Ideal) ei (ix2 (j 0) 0))) (j 1))) :
    combine (Host.scatterAdd scatter_S100000x32_S1600000x1_S1600000x32_1_0_0_1 (val_main_v75 (F := Ideal))
        (val_main_v76 (F := Ideal) ei) upd) (proj2v (val_main_v47 (F := Ideal) x ei w1 b1) (dscale ei) w2) (dscale ei) (brow b2)
      = val_main_v85 (F := Ideal) x ei w1 b1 w2 b2 := by
  funext i
  -- both sides at the output element `i = (n, c)`: the left as `d · (agg + y) + b`, the right as the reference reads it
  rw [Layer2Aux.combine_at, Layer2Aux.scatter32_at, Layer2Aux.v75_at, Layer2Aux.proj2v_at, Layer2Aux.v85_at,
    show dscale ei (ix2 (i 0) 0) = val_main_v10 (F := Ideal) ei (ix1 (i 0)) from rfl,
    show brow b2 (ix2 0 (i 1)) = b2 (ix1 (i 1)) from rfl]
  -- message `j`: its source feature `a`, source scale `ds`, destination scale `dd'`
  refine Layer2Aux.layer2_alg _ upd (val_main_v74 (F := Ideal) x ei w1 b1 w2)
    (fun j => val_main_v49 (F := Ideal) x ei w1 b1 w2
      (ix2 (crow 100000 (by decide) (val_main_v70 (F := Ideal) ei (ix2 (j 0) 0))) (j 1)))
    (fun j => val_main_v10 (F := Ideal) ei (ix1 (crow 100000 (by decide) (val_main_v70 (F := Ideal) ei (ix2 (j 0) 0)))))
    (fun j => val_main_v10 (F := Ideal) ei (ix1 (crow 100000 (by decide) (val_main_v62 (F := Ideal) ei (ix2 (j 0) 0)))))
    _ _ _ ?_ ?_ ?_ ?_ ?_ ?_ ?_
  · -- an update is the source's scale times the source's projection row
    intro j
    exact (hupd j).trans (Layer2Aux.proj2v_at x ei w1 b1 w2 _)
  · -- a reference message is the gathered row times the product of the two gathered scales
    intro j
    rw [val_main_v74_apply, Ideal.mulf_def, Layer2Aux.v71_at, Layer2Aux.v73_at]
  · exact fun j => Layer2Aux.v49_real x ei w1 b1 w2 h47 hw2 _
  · exact fun j => Layer2Aux.v10_real ei _
  · exact Layer2Aux.v10_real ei _
  · exact Layer2Aux.v49_real x ei w1 b1 w2 h47 hw2 i
  · -- a message that lands on row `n` has destination `n`
    intro j hj
    show val_main_v10 (F := Ideal) ei (ix1 (crow 100000 (by decide) (val_main_v62 (F := Ideal) ei (ix2 (j 0) 0))))
      = val_main_v10 (F := Ideal) ei (ix1 (i 0))
    rw [Layer2Aux.dst_row ei j i (Finset.mem_filter.mp hj).2]

end Cert.Gcn.Ref

end
-- ==== Proof.RefSoftmax.lean ====
/-
  The reference's softmax, read index by index, is the row-wise softmax of the value it is taken of.
-/
import proofs.«422054_j87522843558074_3_alg».proof.Proof.RefDefs
import proofs.«422054_j87522843558074_3_alg».proof.Proof.Layer

noncomputable section

namespace Cert.Gcn.Ref

open Idealize.ShloMosaic Idealize.ShloMosaic.ValueIdx Cert.ReferenceIdeal Cert.ReferenceIdeal.Read

/-! ## The row maximum -/

/-- Dropping axis 1 of a `[100000, 32]` array leaves a `[100000]` array. -/
private theorem reduces_row : S100000x32.Reduces [1] S100000 := by decide

/-- Row `n` of the reduced array with column `k` put back on the dropped axis is the index `(n, k)`. -/
private theorem lift_row (h : S100000x32.Reduces [1] S100000) (n : Fin 100000) (k : Fin (S100000x32.size 1)) :
    h.lift (ix1 n) k = ix2 n (⟨k.val, k.isLt⟩ : Fin 32) := by
  funext a
  apply Fin.ext
  match a with
  | ⟨0, _⟩ => rfl
  | ⟨1, _⟩ => rfl

/-- Reading an array through the put-back index of row `n` is reading the elements `(n, c)` of that row. -/
private theorem comp_lift_row (h : S100000x32.Reduces [1] S100000) (v : Arr2 100000 32) (n : Fin 100000) :
    (v ∘ h.lift (ix1 n)) = fun c : Fin 32 => v (ix2 n c) :=
  funext fun k => congrArg v (lift_row h n k)

/-- The maximum of `-∞` with any extended real is that extended real. -/
private theorem max_negInf (y : Ideal .f32) : max (Ideal.ofBits .f32 0xFF800000#32) y = y := by
  simp [Ideal.ofBits, Ideal.ieee]

/-- A reduction by maximum over axis 1, at row `n`, is the fold of `max` from the initial value over the elements
    `(n, c)` of that row: maximum is commutative and associative, so the order of the fold does not matter. -/
private theorem reduceMax_row (v : Arr2 100000 32) (init : S_.Idx → Ideal .f32) (h' : S100000x32.ReducesTo [1] S100000)
    (hu : 0 < S_.numel) (n : Fin 100000) :
    Host.reduce (FloatOps.maximumf (F := Ideal) (φ := .f32)) v init h' hu (ix1 n)
      = Finset.fold max (init (Shape.Idx.first hu)) (fun c : Fin 32 => v (ix2 n c)) Finset.univ := by
  rw [Host.reduce_eq_fold_single (FloatOps.maximumf (F := Ideal) (φ := .f32)) v init h' reduces_row hu]
  exact congrArg (fun f => Finset.fold max (init (Shape.Idx.first hu)) f (Finset.univ : Finset (Fin 32)))
    (comp_lift_row reduces_row v n)

/-- The reference's row reduction by maximum, at row `n`, is the row maximum of the value it reduces. -/
private theorem v86_row (x : Arr2 100000 256) (ei : IVec S2x1600000 32) (w1 : Arr2 256 64) (b1 : Arr1 64) (w2 : Arr2 64 32) (b2 : Arr1 32)
    (n : Fin 100000) :
    val_main_v86 (F := Ideal) x ei w1 b1 w2 b2 (ix1 n) = rowMax (val_main_v85 (F := Ideal) x ei w1 b1 w2 b2) n := by
  unfold val_main_v86 rowMax
  generalize val_main_v85 (F := Ideal) x ei w1 b1 w2 b2 = v
  exact reduceMax_row v _ _ _ n

/-! ## The stages after the row maximum, read at the element `(n, c)` -/

section Stages
variable (x : Arr2 100000 256) (ei : IVec S2x1600000 32) (w1 : Arr2 256 64) (b1 : Arr1 64) (w2 : Arr2 64 32) (b2 : Arr1 32)

/-- The row maximum, maximised once more with `-∞` and broadcast back along the row, reads at `(n, c)` as the
    maximum of row `n`. -/
private theorem v90_at (n : Fin 100000) (c : Fin 32) :
    val_main_v90 (F := Ideal) x ei w1 b1 w2 b2 (ix2 n c) = rowMax (val_main_v85 (F := Ideal) x ei w1 b1 w2 b2) n := by
  have e : idx_main_v89 (idx_main_v90 (ix2 n c)) = ix1 n := by
    funext a
    match a with
    | ⟨0, _⟩ => rfl
  rw [val_main_v90_apply, val_main_v89_apply, val_main_v88_apply, e, val_main_v87_apply, val_main_cst_16_apply, v86_row]
  exact max_negInf _

/-- The exponential stage at `(n, c)`: the exponential of the element less its row's maximum. -/
private theorem v92_at (n : Fin 100000) (c : Fin 32) :
    val_main_v92 (F := Ideal) x ei w1 b1 w2 b2 (ix2 n c)
      = Ideal.exp (val_main_v85 (F := Ideal) x ei w1 b1 w2 b2 (ix2 n c) - rowMax (val_main_v85 (F := Ideal) x ei w1 b1 w2 b2) n) := by
  rw [val_main_v92_apply, val_main_v91_apply, v90_at, Ideal.hostUnary_exp_def, Ideal.subf_def]

/-- The row sum of the exponentials, broadcast back along the row, reads at `(n, c)` as the sum over row `n`;
    the sum starts from the constant `0`, which adds nothing. -/
private theorem v95_at (n : Fin 100000) (c : Fin 32) :
    val_main_v95 (F := Ideal) x ei w1 b1 w2 b2 (ix2 n c)
      = ∑ k : Fin 32, Ideal.exp (val_main_v85 (F := Ideal) x ei w1 b1 w2 b2 (ix2 n k) - rowMax (val_main_v85 (F := Ideal) x ei w1 b1 w2 b2) n) := by
  have e : idx_main_v94 (idx_main_v95 (ix2 n c)) = ix1 n := by
    funext a
    match a with
    | ⟨0, _⟩ => rfl
  have e2 : ∀ k : Fin 32, idx_main_v93 (ix1 n) k = ix2 n k := fun k => by
    funext a
    match a with
    | ⟨0, _⟩ => rfl
    | ⟨1, _⟩ => rfl
  rw [val_main_v95_apply, val_main_v94_apply, e, val_main_v93_apply, val_main_cst_17_apply, Ideal.ofBits_def,
    Ideal.ofBits_zero_f32, zero_add]
  refine Finset.sum_congr rfl fun k _ => ?_
  rw [e2 k, v92_at]

end Stages

theorem softmax_eq (x : Arr2 100000 256) (ei : IVec S2x1600000 32) (w1 : Arr2 256 64) (b1 : Arr1 64) (w2 : Arr2 64 32) (b2 : Arr1 32) :
    softmaxRows (val_main_v85 (F := Ideal) x ei w1 b1 w2 b2) = val_main_v96 (F := Ideal) x ei w1 b1 w2 b2 := by
  funext i
  obtain ⟨n, c, rfl⟩ : ∃ (n : Fin 100000) (c : Fin 32), i = ix2 n c := ⟨i 0, i 1, eq_ix2 i⟩
  rw [val_main_v96_apply, v92_at, v95_at]
  rfl

end Cert.Gcn.Ref

end
-- ==== Proof.KTake.lean ====
/-
  The kernel program's row gather `take y src` (rows of `y : [N, D]` at the node numbers `src : [E]`), as the host program
  computes it: a negative index is wrapped by adding `N`, the row is gathered with the index clamped, and a row whose
  wrapped index is outside `[0, N - 1]` is replaced by a fill value. Where every index is a node number, `0 ≤ src e < N`,
  no row is filled: row `e` of the result is row `clamp (wrap src e)` of `y`.
-/
import proofs.«422054_j87522843558074_3_alg».proof.Proof.Gen.KernelIdeal.Frame
import proofs.«422054_j87522843558074_3_alg».proof.Proof.Model
import proofs.«422054_j87522843558074_3_alg».proof.Proof.LibIndex
import Idealize.ShloMosaic.PureOps.Reduce

noncomputable section

namespace Cert.Gcn.K

open Idealize.ShloMosaic Idealize.ShloMosaic.ValueIdx Cert.KernelIdeal
open Cert.KernelIdeal.Facts₀ Cert.KernelIdeal.Facts

/-- The start indices as a column `[E, 1]`: `src e`, plus `N` where it is negative. -/
def takeIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Row `e`'s mask: its wrapped index lies in `[0, 99999]`. -/
def takeMask (sidx : IVec S1600000x1 32) : IVec S1600000 1 :=
  Host.reduce IntOp.andi
    (andi (cmpi .sge sidx (broadcastInDim S1600000x1 ![] bcast_S_S1600000x1 (constantI S_ 32 0#32)))
      (cmpi .sle sidx (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The gather of 64-wide rows. -/
def take64 (src : IVec S1600000 32) (y : FVec Ideal S100000x64 .f32) : FVec Ideal S1600000x64 .f32 :=
  select (broadcastInDim S1600000x64 ![0] bcast_S1600000_S1600000x64_0 (takeMask (takeIdx src)))
    (Host.gather gather_S100000x64_S1600000x1_S1600000x64_1_0_n_n_0_1_164 y (takeIdx src))
    (broadcastInDim S1600000x64 ![] bcast_S_S1600000x64 (constant S_ .f32 0x7FC00000#32))

/-- The gather of 32-wide rows. -/
def take32 (src : IVec S1600000 32) (y : FVec Ideal S100000x32 .f32) : FVec Ideal S1600000x32 .f32 :=
  select (broadcastInDim S1600000x32 ![0] bcast_S1600000_S1600000x32_0 (takeMask (takeIdx src)))
    (Host.gather gather_S100000x32_S1600000x1_S1600000x32_1_0_n_n_0_1_132 y (takeIdx src))
    (broadcastInDim S1600000x32 ![] bcast_S_S1600000x32 (constant S_ .f32 0x7FC00000#32))

/-- A nonnegative word is not below zero: the signed comparison `v < 0` is the bit `0`. -/
theorem slt_zero_of_nonneg (v : BitVec 32) (h : 0 ≤ v.toInt) : IntOp.cmpi .slt v 0#32 = 0#1 := by
  refine eq_zero_of_ne_one fun h1 => ?_
  have h2 := IntOp.cmpi_slt.1 h1
  have h0 : (0#32 : BitVec 32).toInt = 0 := by decide
  omega

/-- A vector `[E]` broadcast to a column `[E, 1]` along axis 0 reads, at `[e, 0]`, the vector at `e`. -/
theorem bcast_col_apply {α : Type} (x : S1600000.Idx → α) (e : Fin 1600000) :
    broadcastInDim S1600000x1 ![0] bcast_S1600000_S1600000x1_0 x (ix2 e 0) = x (ix1 e) := by
  unfold broadcastInDim
  congr 1
  funext a
  match a with
  | ⟨0, _⟩ => rfl

/-- A vector `[E]` broadcast along the rows of `[E, D]` reads, at `(e, c)`, the vector at `e`. -/
theorem bcast_rows_apply {α : Type} {D : Nat} (h : S1600000.BroadcastsInDim ⟨2, ![1600000, D]⟩ ![0])
    (x : S1600000.Idx → α) (j : (⟨2, ![1600000, D]⟩ : Shape).Idx) :
    broadcastInDim ⟨2, ![1600000, D]⟩ ![0] h x j = x (ix1 (j 0)) := by
  unfold broadcastInDim
  refine congrArg x (funext fun a => ?_)
  match a with
  | ⟨0, _⟩ => rfl

/-- A fold over a one-element range is one application of the operation. -/
theorem fold_fin_one {β : Type} (op : β → β → β) [Std.Commutative op] [Std.Associative op] (b : β) (n : Nat) (hn : n = 1)
    (f : Fin n → β) : (Finset.univ : Finset (Fin n)).fold op b f = op (f ⟨0, by omega⟩) b := by
  subst hn
  rw [show (Finset.univ : Finset (Fin 1)) = {0} from rfl, Finset.fold_singleton]
  rfl

/-- Where `src e` is nonnegative it is not wrapped: the column of start indices holds `src e` at `[e, 0]`. -/
theorem takeIdx_apply (src : IVec S1600000 32) (e : Fin 1600000) (h : 0 ≤ (src (ix1 e)).toInt) :
    takeIdx src (ix2 e 0) = src (ix1 e) := by
  unfold takeIdx
  rw [bcast_col_apply, select_apply]
  have hc : cmpi .slt src (broadcastInDim S1600000 ![] bcast_S_S1600000 (constantI S_ 32 0#32)) (ix1 e) = 0#1 :=
    slt_zero_of_nonneg _ h
  rw [hc, select_zero]

/-- The mask of row `e` is the `and`, over the one column, of the two range tests of the start index at `[e, 0]`:
    it is `1` where that index lies in `[0, 99999]`. -/
theorem takeMask_apply (sidx : IVec S1600000x1 32) (e : Fin 1600000)
    (h0 : 0 ≤ (sidx (ix2 e 0)).toInt) (h1 : (sidx (ix2 e 0)).toInt ≤ 99999) :
    takeMask sidx (ix1 e) = 1#1 := by
  have hR : S1600000x1.Reduces [1] S1600000 := by decide
  -- the one index of the column that reduces into `e` is `[e, 0]`
  have hi : ∀ k : Fin (S1600000x1.size 1), hR.lift (ix1 e) k = ix2 e 0 := by
    intro k
    funext c; apply Fin.ext
    match c with
    | ⟨0, _⟩ => rfl
    | ⟨1, _⟩ =>
      show k.val = 0
      have hk : k.val < 1 := k.isLt
      omega
  unfold takeMask
  rw [Host.reduce_eq_fold_single IntOp.andi _ _ reducesTo_S1600000x1_S1600000_d1 hR h_S_ (ix1 e)]
  rw [fold_fin_one IntOp.andi _ (S1600000x1.size 1) rfl, Function.comp_apply, hi]
  refine IntOp.andi_eq_one.2 ⟨?_, rfl⟩
  show IntOp.andi (IntOp.cmpi .sge (sidx (ix2 e 0)) 0#32) (IntOp.cmpi .sle (sidx (ix2 e 0)) 99999#32) = 1#1
  refine IntOp.andi_eq_one.2 ⟨IntOp.cmpi_sge.2 ?_, IntOp.cmpi_sle.2 ?_⟩
  · have hz : (0#32 : BitVec 32).toInt = 0 := by decide
    omega
  · have hn : (99999#32 : BitVec 32).toInt = 99999 := by decide
    omega

/-- Where every index is a node number no row is filled: row `e` is row `clamp (wrap src e)` of `y`. -/
theorem take64_apply (src : IVec S1600000 32) (y : FVec Ideal S100000x64 .f32)
    (hP : ∀ e, 0 ≤ (src e).toInt ∧ (src e).toInt < 100000) (j : S1600000x64.Idx) :
    take64 src y j = y (ix2 (crow 100000 (by decide) (takeIdx src (ix2 (j 0) 0))) (j 1)) := by
  have hs := hP (ix1 (j 0))
  -- the start index at `[e, 0]` is `src e` itself, so it lies in `[0, 99999]` and the mask of row `e` is `1`
  have hidx : takeIdx src (ix2 (j 0) 0) = src (ix1 (j 0)) := takeIdx_apply src (j 0) hs.1
  have hm : takeMask (takeIdx src) (ix1 (j 0)) = 1#1 :=
    takeMask_apply _ (j 0) (by rw [hidx]; exact hs.1) (by rw [hidx]; omega)
  -- the mask broadcast along the rows reads, at `(e, c)`, the mask of row `e`
  have hb : broadcastInDim S1600000x64 ![0] bcast_S1600000_S1600000x64_0 (takeMask (takeIdx src)) j
      = takeMask (takeIdx src) (ix1 (j 0)) := bcast_rows_apply bcast_S1600000_S1600000x64_0 _ j
  unfold take64
  rw [select_apply, hb, hm, select_one]
  -- what is left is the row gather with the program's dimension numbers
  rw [show gather_S100000x64_S1600000x1_S1600000x64_1_0_n_n_0_1_164
      = rowGatherDims 100000 1600000 64 Facts₀.gather_S100000x64_S1600000x1_S1600000x64_1_0_n_n_0_1_164_wf from rfl]
  exact gatherRows_apply (by decide) _ y (takeIdx src) j

theorem take32_apply (src : IVec S1600000 32) (y : FVec Ideal S100000x32 .f32)
    (hP : ∀ e, 0 ≤ (src e).toInt ∧ (src e).toInt < 100000) (j : S1600000x32.Idx) :
    take32 src y j = y (ix2 (crow 100000 (by decide) (takeIdx src (ix2 (j 0) 0))) (j 1)) := by
  have hs := hP (ix1 (j 0))
  -- the start index at `[e, 0]` is `src e` itself, so it lies in `[0, 99999]` and the mask of row `e` is `1`
  have hidx : takeIdx src (ix2 (j 0) 0) = src (ix1 (j 0)) := takeIdx_apply src (j 0) hs.1
  have hm : takeMask (takeIdx src) (ix1 (j 0)) = 1#1 :=
    takeMask_apply _ (j 0) (by rw [hidx]; exact hs.1) (by rw [hidx]; omega)
  -- the mask broadcast along the rows reads, at `(e, c)`, the mask of row `e`
  have hb : broadcastInDim S1600000x32 ![0] bcast_S1600000_S1600000x32_0 (takeMask (takeIdx src)) j
      = takeMask (takeIdx src) (ix1 (j 0)) := bcast_rows_apply bcast_S1600000_S1600000x32_0 _ j
  unfold take32
  rw [select_apply, hb, hm, select_one]
  -- what is left is the row gather with the program's dimension numbers
  rw [show gather_S100000x32_S1600000x1_S1600000x32_1_0_n_n_0_1_132
      = rowGatherDims 100000 1600000 32 Facts₀.gather_S100000x32_S1600000x1_S1600000x32_1_0_n_n_0_1_132_wf from rfl]
  exact gatherRows_apply (by decide) _ y (takeIdx src) j

end Cert.Gcn.K

end
-- ==== Proof.KHost.lean ====
/-
  The idealized kernel program's result, read through its eight segments.

  The program is: a host stretch computing the per-node scale `d = rsqrt (deg + 1)` and the source / destination node numbers;
  the first kernel region (`proj1`: the source-scaled projection `d · (x W₁)`); a gather of its rows at the sources and their
  sum per destination; the second region (`proj2`: the same projection of the rectified first layer); again gather and sum;
  the third region (the row-wise softmax of the combined second layer). Buffer by buffer, the contents at each segment
  boundary are named; the gathers fill nothing because every index is a node number; the two aggregates, combined, are the
  reference's two layers (one layer law each), so the result buffer ends at the reference's result term.
-/
import proofs.«422054_j87522843558074_3_alg».proof.Proof.Gen.KernelIdeal.Frame
import proofs.«422054_j87522843558074_3_alg».proof.Proof.RefDefs
import proofs.«422054_j87522843558074_3_alg».proof.Proof.KReg0
import proofs.«422054_j87522843558074_3_alg».proof.Proof.KReg1
import proofs.«422054_j87522843558074_3_alg».proof.Proof.KReg2
import proofs.«422054_j87522843558074_3_alg».proof.Proof.RefLayer1
import proofs.«422054_j87522843558074_3_alg».proof.Proof.RefLayer2
import proofs.«422054_j87522843558074_3_alg».proof.Proof.RefSoftmax
import proofs.«422054_j87522843558074_3_alg».proof.Proof.KTake
import Idealize.ShloMosaic.Lib.StableHlo.Run
import Idealize.ShloMosaic.Lib.Pipeline.Value
import Idealize.ShloMosaic.Lib.ValueLayout

set_option maxRecDepth 16384

noncomputable section

namespace Cert.Gcn.K

open Idealize.ShloMosaic Idealize.ShloMosaic.ValueIdx Idealize.ShloMosaic.TcCoe Idealize.SL.Sem Cert.KernelIdeal Cert.KernelIdeal.Gen
open Idealize.ShloMosaic.Pipeline (Dat Cfg Window)

variable (m : (ℓ : Loc nD τ sig) → Buf (Elt Ideal) ℓ) (ρ : Dev nD → PrngReg) (c : Dev nD)

/-- A reshape `[N] → [N, 1]` read at an index. -/
theorem reshape_col {α : Type} (v : (⟨1, ![100000]⟩ : Shape).Idx → α) (h : (⟨1, ![100000]⟩ : Shape).ShapeCasts ⟨2, ![100000, 1]⟩)
    (i : (⟨2, ![100000, 1]⟩ : Shape).Idx) : shapeCast ⟨2, ![100000, 1]⟩ v h i = v (ix1 (i 0)) := by
  refine shapeCast_apply v h i (ix1 (i 0)) ?_
  rw [Shape.rowMajor_val_one, Shape.rowMajor_val_two]
  have h1 : (i 1).val = 0 := by have := (i 1).isLt; simp at this; omega
  show (i 0).val = (i 0).val * 1 + (i 1).val
  omega

/-- A reshape `[D] → [1, D]` read at an index. -/
theorem reshape_row {α : Type} {D : Nat} (v : (⟨1, ![D]⟩ : Shape).Idx → α) (h : (⟨1, ![D]⟩ : Shape).ShapeCasts ⟨2, ![1, D]⟩)
    (i : (⟨2, ![1, D]⟩ : Shape).Idx) : shapeCast ⟨2, ![1, D]⟩ v h i = v (ix1 (i 1)) := by
  refine shapeCast_apply v h i (ix1 (i 1)) ?_
  rw [Shape.rowMajor_val_one, Shape.rowMajor_val_two]
  have h0 : (i 0).val = 0 := by have := (i 0).isLt; simp at this; omega
  show (i 1).val = (i 0).val * D + (i 1).val
  rw [h0]; omega

/-- A stretch of host operations leaves a buffer none of them writes as it was. -/
macro "host_skip " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-- The argument arrays as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-- The scale column after the first host stretch is the reference's. -/
theorem W1_v11 : W1 (F := Ideal) m ρ c (Proc.devRef .tc main_v11) = Cert.Gcn.Ref.dscale (a1 m c) := by
  dsimp only [W1, W0]
  after_results
  funext i
  refine (reshape_col _ _ i).trans ?_
  rfl

theorem W1_arg0 : W1 (F := Ideal) m ρ c (Proc.devRef .tc main_arg0) = (a0 m c) := by
  show StableHlo.after hostOps0 (W0 m ρ c) (Proc.devRef .tc main_arg0) = W0 m ρ c (Proc.devRef .tc main_arg0)
  host_skip hostOps0
theorem W1_arg2 : W1 (F := Ideal) m ρ c (Proc.devRef .tc main_arg2) = (a2 m c) := by
  show StableHlo.after hostOps0 (W0 m ρ c) (Proc.devRef .tc main_arg2) = W0 m ρ c (Proc.devRef .tc main_arg2)
  host_skip hostOps0

/-- The first region's output: the source-scaled first projection. -/
theorem W2_v12 : W2 (F := Ideal) m ρ c (Proc.devRef .tc main_v12) = proj1 (a0 m c) (a2 m c) (Cert.Gcn.Ref.dscale (a1 m c)) := by
  refine (W2_arr m ρ c 3).trans ((arr0 (V1 m ρ) c).trans ?_)
  show proj1 (W1 m ρ c (Proc.devRef .tc main_arg0)) (W1 m ρ c (Proc.devRef .tc main_arg2)) (W1 m ρ c (Proc.devRef .tc main_v11)) = _
  rw [W1_arg0, W1_arg2, W1_v11]

/-- The source and destination node numbers after the first host stretch are the reference's. -/
theorem W1_v1 : W1 (F := Ideal) m ρ c (Proc.devRef .tc main_v1) = Cert.ReferenceIdeal.Read.val_main_v1 (F := Ideal) (a1 m c) := by
  dsimp only [W1, W0]
  after_results
  try rfl
theorem W1_v3 : W1 (F := Ideal) m ρ c (Proc.devRef .tc main_v3) = Cert.ReferenceIdeal.Read.val_main_v3 (F := Ideal) (a1 m c) := by
  dsimp only [W1, W0]
  after_results
  try rfl
theorem W1_arg3 : W1 (F := Ideal) m ρ c (Proc.devRef .tc main_arg3) = a3 m c := by
  show StableHlo.after hostOps0 (W0 m ρ c) (Proc.devRef .tc main_arg3) = W0 m ρ c (Proc.devRef .tc main_arg3)
  host_skip hostOps0
theorem W1_arg4 : W1 (F := Ideal) m ρ c (Proc.devRef .tc main_arg4) = a4 m c := by
  show StableHlo.after hostOps0 (W0 m ρ c) (Proc.devRef .tc main_arg4) = W0 m ρ c (Proc.devRef .tc main_arg4)
  host_skip hostOps0
theorem W1_arg5 : W1 (F := Ideal) m ρ c (Proc.devRef .tc main_arg5) = a5 m c := by
  show StableHlo.after hostOps0 (W0 m ρ c) (Proc.devRef .tc main_arg5) = W0 m ρ c (Proc.devRef .tc main_arg5)
  host_skip hostOps0

/-! ### After the first region -/
theorem W2_v1 : W2 (F := Ideal) m ρ c (Proc.devRef .tc main_v1) = Cert.ReferenceIdeal.Read.val_main_v1 (F := Ideal) (a1 m c) :=
  (W2_of_ne m ρ c main_v1 (by decide)).trans (W1_v1 m ρ c)
theorem W2_v3 : W2 (F := Ideal) m ρ c (Proc.devRef .tc main_v3) = Cert.ReferenceIdeal.Read.val_main_v3 (F := Ideal) (a1 m c) :=
  (W2_of_ne m ρ c main_v3 (by decide)).trans (W1_v3 m ρ c)
theorem W2_v11 : W2 (F := Ideal) m ρ c (Proc.devRef .tc main_v11) = (Cert.Gcn.Ref.dscale (a1 m c)) :=
  ((W2_arr m ρ c 2).trans (((dat0 (V1 m ρ) c).arrAt_in 2 rfl _).trans (A_eq0 (V1 m ρ) c 2))).trans (W1_v11 m ρ c)
theorem W2_arg3 : W2 (F := Ideal) m ρ c (Proc.devRef .tc main_arg3) = a3 m c :=
  (W2_of_ne m ρ c main_arg3 (by decide)).trans (W1_arg3 m ρ c)
theorem W2_arg4 : W2 (F := Ideal) m ρ c (Proc.devRef .tc main_arg4) = a4 m c :=
  (W2_of_ne m ρ c main_arg4 (by decide)).trans (W1_arg4 m ρ c)
theorem W2_arg5 : W2 (F := Ideal) m ρ c (Proc.devRef .tc main_arg5) = a5 m c :=
  (W2_of_ne m ρ c main_arg5 (by decide)).trans (W1_arg5 m ρ c)

/-! ### The gathers: contents carried to a buffer's own type and back -/

/-- Contents carried to a buffer's own type and back are themselves. -/
theorem ofBuf_toBuf {T : BufTy} (x : StableHlo.TRef sig T) (v : T.Contents (Elt Ideal)) : x.ofBuf (x.toBuf v) = v := by
  obtain ⟨r, h, h2, h3⟩ := x
  subst h
  rfl

set_option maxHeartbeats 4000000 in
theorem after1_cast (V : Valuation τ sig (Elt Ideal)) : StableHlo.after hostOps1 V (Proc.devRef .tc main_v13)
    = (StableHlo.TRef.of main_v13 : StableHlo.TRef sig ⟨S1600000x64, .f32⟩).toBuf
        (take64 ((StableHlo.TRef.of main_v1 : StableHlo.TRef sig ⟨S1600000, .i32⟩).ofBuf (V (Proc.devRef .tc main_v1)))
          ((StableHlo.TRef.of main_v12 : StableHlo.TRef sig ⟨S100000x64, .f32⟩).ofBuf (V (Proc.devRef .tc main_v12)))) := by
  after_results_simp
  simp only [ofBuf_toBuf]
  rfl
theorem toBuf_1_out (v : (⟨S1600000x64, .f32⟩ : BufTy).Contents (Elt Ideal)) :
    (StableHlo.TRef.of main_v13 : StableHlo.TRef sig ⟨S1600000x64, .f32⟩).toBuf v = v := rfl
theorem ofBuf_1_src (u : (main_v1 : Ref sig .tc).ty.Contents (Elt Ideal)) :
    (StableHlo.TRef.of main_v1 : StableHlo.TRef sig ⟨S1600000, .i32⟩).ofBuf u = u := rfl
theorem ofBuf_1_y (u : (main_v12 : Ref sig .tc).ty.Contents (Elt Ideal)) :
    (StableHlo.TRef.of main_v12 : StableHlo.TRef sig ⟨S100000x64, .f32⟩).ofBuf u = u := rfl
set_option maxHeartbeats 4000000 in
theorem after1 (V : Valuation τ sig (Elt Ideal)) : StableHlo.after hostOps1 V (Proc.devRef .tc main_v13)
    = take64 (V (Proc.devRef .tc main_v1)) (V (Proc.devRef .tc main_v12)) := by
  rw [after1_cast, toBuf_1_out, ofBuf_1_src, ofBuf_1_y]

set_option maxHeartbeats 4000000 in
theorem after2_cast (V : Valuation τ sig (Elt Ideal)) : StableHlo.after hostOps2 V (Proc.devRef .tc main_v19)
    = (StableHlo.TRef.of main_v19 : StableHlo.TRef sig ⟨S1600000x32, .f32⟩).toBuf
        (take32 ((StableHlo.TRef.of main_v1 : StableHlo.TRef sig ⟨S1600000, .i32⟩).ofBuf (V (Proc.devRef .tc main_v1)))
          ((StableHlo.TRef.of main_v18 : StableHlo.TRef sig ⟨S100000x32, .f32⟩).ofBuf (V (Proc.devRef .tc main_v18)))) := by
  after_results_simp
  simp only [ofBuf_toBuf]
  rfl
theorem toBuf_2_out (v : (⟨S1600000x32, .f32⟩ : BufTy).Contents (Elt Ideal)) :
    (StableHlo.TRef.of main_v19 : StableHlo.TRef sig ⟨S1600000x32, .f32⟩).toBuf v = v := rfl
theorem ofBuf_2_src (u : (main_v1 : Ref sig .tc).ty.Contents (Elt Ideal)) :
    (StableHlo.TRef.of main_v1 : StableHlo.TRef sig ⟨S1600000, .i32⟩).ofBuf u = u := rfl
theorem ofBuf_2_y (u : (main_v18 : Ref sig .tc).ty.Contents (Elt Ideal)) :
    (StableHlo.TRef.of main_v18 : StableHlo.TRef sig ⟨S100000x32, .f32⟩).ofBuf u = u := rfl
set_option maxHeartbeats 4000000 in
theorem after2 (V : Valuation τ sig (Elt Ideal)) : StableHlo.after hostOps2 V (Proc.devRef .tc main_v19)
    = take32 (V (Proc.devRef .tc main_v1)) (V (Proc.devRef .tc main_v18)) := by
  rw [after2_cast, toBuf_2_out, ofBuf_2_src, ofBuf_2_y]

/-! ### After the first gather -/
theorem W3_v13 : W3 (F := Ideal) m ρ c (Proc.devRef .tc main_v13) = take64 (Cert.ReferenceIdeal.Read.val_main_v1 (F := Ideal) (a1 m c)) (proj1 (a0 m c) (a2 m c) (Cert.Gcn.Ref.dscale (a1 m c))) := by
  show StableHlo.after hostOps1 (W2 m ρ c) (Proc.devRef .tc main_v13) = _
  rw [after1, W2_v1, W2_v12]
theorem W3_v1 : W3 (F := Ideal) m ρ c (Proc.devRef .tc main_v1) = Cert.ReferenceIdeal.Read.val_main_v1 (F := Ideal) (a1 m c) :=
  (show W3 (F := Ideal) m ρ c (Proc.devRef .tc main_v1) = W2 m ρ c (Proc.devRef .tc main_v1) by host_skip hostOps1).trans (W2_v1 m ρ c)
theorem W3_v3 : W3 (F := Ideal) m ρ c (Proc.devRef .tc main_v3) = Cert.ReferenceIdeal.Read.val_main_v3 (F := Ideal) (a1 m c) :=
  (show W3 (F := Ideal) m ρ c (Proc.devRef .tc main_v3) = W2 m ρ c (Proc.devRef .tc main_v3) by host_skip hostOps1).trans (W2_v3 m ρ c)
theorem W3_v11 : W3 (F := Ideal) m ρ c (Proc.devRef .tc main_v11) = (Cert.Gcn.Ref.dscale (a1 m c)) :=
  (show W3 (F := Ideal) m ρ c (Proc.devRef .tc main_v11) = W2 m ρ c (Proc.devRef .tc main_v11) by host_skip hostOps1).trans (W2_v11 m ρ c)
theorem W3_v12 : W3 (F := Ideal) m ρ c (Proc.devRef .tc main_v12) = (proj1 (a0 m c) (a2 m c) (Cert.Gcn.Ref.dscale (a1 m c))) :=
  (show W3 (F := Ideal) m ρ c (Proc.devRef .tc main_v12) = W2 m ρ c (Proc.devRef .tc main_v12) by host_skip hostOps1).trans (W2_v12 m ρ c)
theorem W3_arg3 : W3 (F := Ideal) m ρ c (Proc.devRef .tc main_arg3) = a3 m c :=
  (show W3 (F := Ideal) m ρ c (Proc.devRef .tc main_arg3) = W2 m ρ c (Proc.devRef .tc main_arg3) by host_skip hostOps1).trans (W2_arg3 m ρ c)
theorem W3_arg4 : W3 (F := Ideal) m ρ c (Proc.devRef .tc main_arg4) = a4 m c :=
  (show W3 (F := Ideal) m ρ c (Proc.devRef .tc main_arg4) = W2 m ρ c (Proc.devRef .tc main_arg4) by host_skip hostOps1).trans (W2_arg4 m ρ c)
theorem W3_arg5 : W3 (F := Ideal) m ρ c (Proc.devRef .tc main_arg5) = a5 m c :=
  (show W3 (F := Ideal) m ρ c (Proc.devRef .tc main_arg5) = W2 m ρ c (Proc.devRef .tc main_arg5) by host_skip hostOps1).trans (W2_arg5 m ρ c)

/-! ### After the first aggregation -/
theorem W4_v16_raw : W4 (F := Ideal) m ρ c (Proc.devRef .tc main_v16)
    = Host.scatterAdd scatter_S100000x64_S1600000x1_S1600000x64_1_0_0_1 (broadcastInDim S100000x64 ![] bcast_S_S100000x64 (constant (F := Ideal) S_ .f32 0x00000000#32))
        (broadcastInDim S1600000x1 ![0] bcast_S1600000_S1600000x1_0 (W3 m ρ c (Proc.devRef .tc main_v3))) (W3 m ρ c (Proc.devRef .tc main_v13)) := by
  show StableHlo.after hostOps1_1 (W3 m ρ c) (Proc.devRef .tc main_v16) = _
  generalize W3 m ρ c = V3
  after_results
  try rfl
theorem W4_v16 : W4 (F := Ideal) m ρ c (Proc.devRef .tc main_v16) = (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (Cert.ReferenceIdeal.Read.val_main_v3 (F := Ideal) (a1 m c))) (take64 (Cert.ReferenceIdeal.Read.val_main_v1 (F := Ideal) (a1 m c)) (proj1 (a0 m c) (a2 m c) (Cert.Gcn.Ref.dscale (a1 m c))))) := by
  rw [W4_v16_raw, W3_v3, W3_v13]
theorem W4_v17 : W4 (F := Ideal) m ρ c (Proc.devRef .tc main_v17) = brow (a3 m c) := by
  have h : W4 (F := Ideal) m ρ c (Proc.devRef .tc main_v17) = shapeCast S1x64 (W3 m ρ c (Proc.devRef .tc main_arg3)) shapeCasts_S64_S1x64 := by
    show StableHlo.after hostOps1_1 (W3 m ρ c) (Proc.devRef .tc main_v17) = _
    generalize W3 m ρ c = V3
    after_results
    try rfl
  rw [h, W3_arg3]
  funext i
  exact reshape_row _ _ i
theorem W4_v1 : W4 (F := Ideal) m ρ c (Proc.devRef .tc main_v1) = Cert.ReferenceIdeal.Read.val_main_v1 (F := Ideal) (a1 m c) :=
  (show W4 (F := Ideal) m ρ c (Proc.devRef .tc main_v1) = W3 m ρ c (Proc.devRef .tc main_v1) by host_skip hostOps1_1).trans (W3_v1 m ρ c)
theorem W4_v3 : W4 (F := Ideal) m ρ c (Proc.devRef .tc main_v3) = Cert.ReferenceIdeal.Read.val_main_v3 (F := Ideal) (a1 m c) :=
  (show W4 (F := Ideal) m ρ c (Proc.devRef .tc main_v3) = W3 m ρ c (Proc.devRef .tc main_v3) by host_skip hostOps1_1).trans (W3_v3 m ρ c)
theorem W4_v11 : W4 (F := Ideal) m ρ c (Proc.devRef .tc main_v11) = (Cert.Gcn.Ref.dscale (a1 m c)) :=
  (show W4 (F := Ideal) m ρ c (Proc.devRef .tc main_v11) = W3 m ρ c (Proc.devRef .tc main_v11) by host_skip hostOps1_1).trans (W3_v11 m ρ c)
theorem W4_v12 : W4 (F := Ideal) m ρ c (Proc.devRef .tc main_v12) = (proj1 (a0 m c) (a2 m c) (Cert.Gcn.Ref.dscale (a1 m c))) :=
  (show W4 (F := Ideal) m ρ c (Proc.devRef .tc main_v12) = W3 m ρ c (Proc.devRef .tc main_v12) by host_skip hostOps1_1).trans (W3_v12 m ρ c)
theorem W4_arg4 : W4 (F := Ideal) m ρ c (Proc.devRef .tc main_arg4) = a4 m c :=
  (show W4 (F := Ideal) m ρ c (Proc.devRef .tc main_arg4) = W3 m ρ c (Proc.devRef .tc main_arg4) by host_skip hostOps1_1).trans (W3_arg4 m ρ c)
theorem W4_arg5 : W4 (F := Ideal) m ρ c (Proc.devRef .tc main_arg5) = a5 m c :=
  (show W4 (F := Ideal) m ρ c (Proc.devRef .tc main_arg5) = W3 m ρ c (Proc.devRef .tc main_arg5) by host_skip hostOps1_1).trans (W3_arg5 m ρ c)

/-! ### The first layer: the kernel's aggregate, combined, is the reference's layer -/

theorem takeIdx_src (ei : IVec S2x1600000 32) : takeIdx (Cert.ReferenceIdeal.Read.val_main_v1 (F := Ideal) ei) = Cert.ReferenceIdeal.Read.val_main_v32 (F := Ideal) ei := rfl
theorem takeIdx_src' (ei : IVec S2x1600000 32) : takeIdx (Cert.ReferenceIdeal.Read.val_main_v1 (F := Ideal) ei) = Cert.ReferenceIdeal.Read.val_main_v70 (F := Ideal) ei := rfl

/-- Every source node number is in range when every entry of the edge array is. -/
theorem src_range (ei : IVec S2x1600000 32) (hP : ∀ i, 0 ≤ (ei i).toInt ∧ (ei i).toInt < 100000) (e : S1600000.Idx) :
    0 ≤ (Cert.ReferenceIdeal.Read.val_main_v1 (F := Ideal) ei e).toInt ∧ (Cert.ReferenceIdeal.Read.val_main_v1 (F := Ideal) ei e).toInt < 100000 := by
  rw [Cert.ReferenceIdeal.Read.val_main_v1_apply, Cert.ReferenceIdeal.Read.val_main_v0_apply]
  exact hP _

section Value
variable (hx : ∀ i, IsReal (a0 m c i)) (hw1 : ∀ i, IsReal (a2 m c i)) (hb1 : ∀ i, IsReal (a3 m c i)) (hw2 : ∀ i, IsReal (a4 m c i))
  (hP : ∀ i, 0 ≤ (a1 m c i).toInt ∧ (a1 m c i).toInt < 100000)
include hx hw1 hP

theorem layer1_eq : combine (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (Cert.ReferenceIdeal.Read.val_main_v3 (F := Ideal) (a1 m c))) (take64 (Cert.ReferenceIdeal.Read.val_main_v1 (F := Ideal) (a1 m c)) (proj1 (a0 m c) (a2 m c) (Cert.Gcn.Ref.dscale (a1 m c))))) (proj1 (a0 m c) (a2 m c) (Cert.Gcn.Ref.dscale (a1 m c))) (Cert.Gcn.Ref.dscale (a1 m c)) (brow (a3 m c)) = (Cert.ReferenceIdeal.Read.val_main_v47 (F := Ideal) (a0 m c) (a1 m c) (a2 m c) (a3 m c)) := by
  refine Eq.trans ?_ (Cert.Gcn.Ref.layer1 (a0 m c) (a1 m c) (a2 m c) (a3 m c) hx hw1 (take64 (Cert.ReferenceIdeal.Read.val_main_v1 (F := Ideal) (a1 m c)) (proj1 (a0 m c) (a2 m c) (Cert.Gcn.Ref.dscale (a1 m c)))) (fun j => ?_))
  · rfl
  · rw [take64_apply (Cert.ReferenceIdeal.Read.val_main_v1 (F := Ideal) (a1 m c)) (proj1 (a0 m c) (a2 m c) (Cert.Gcn.Ref.dscale (a1 m c))) (src_range (a1 m c) hP) j, takeIdx_src]

/-! ### After the second region -/
theorem W5_v18 : W5 (F := Ideal) m ρ c (Proc.devRef .tc main_v18) = (proj2v (Cert.ReferenceIdeal.Read.val_main_v47 (F := Ideal) (a0 m c) (a1 m c) (a2 m c) (a3 m c)) (Cert.Gcn.Ref.dscale (a1 m c)) (a4 m c)) := by
  refine (W5_arr m ρ c 5).trans ((arr1 (V4 m ρ) c).trans ?_)
  show proj2 (W4 m ρ c (Proc.devRef .tc main_v16)) (W4 m ρ c (Proc.devRef .tc main_v12)) (W4 m ρ c (Proc.devRef .tc main_v11)) (W4 m ρ c (Proc.devRef .tc main_v17)) (W4 m ρ c (Proc.devRef .tc main_arg4)) = _
  rw [W4_v16, W4_v12, W4_v11, W4_v17, W4_arg4, proj2_eq, layer1_eq m c hx hw1 hP]
omit hx hw1 hP in
theorem W5_v11 : W5 (F := Ideal) m ρ c (Proc.devRef .tc main_v11) = (Cert.Gcn.Ref.dscale (a1 m c)) :=
  ((W5_arr m ρ c 2).trans (((dat1 (V4 m ρ) c).arrAt_in 2 rfl _).trans (A_eq1 (V4 m ρ) c 2))).trans (W4_v11 m ρ c)
omit hx hw1 hP in
theorem W5_v1 : W5 (F := Ideal) m ρ c (Proc.devRef .tc main_v1) = Cert.ReferenceIdeal.Read.val_main_v1 (F := Ideal) (a1 m c) :=
  (W5_of_ne m ρ c main_v1 (by decide)).trans (W4_v1 m ρ c)
omit hx hw1 hP in
theorem W5_v3 : W5 (F := Ideal) m ρ c (Proc.devRef .tc main_v3) = Cert.ReferenceIdeal.Read.val_main_v3 (F := Ideal) (a1 m c) :=
  (W5_of_ne m ρ c main_v3 (by decide)).trans (W4_v3 m ρ c)
omit hx hw1 hP in
theorem W5_arg5 : W5 (F := Ideal) m ρ c (Proc.devRef .tc main_arg5) = a5 m c :=
  (W5_of_ne m ρ c main_arg5 (by decide)).trans (W4_arg5 m ρ c)

/-! ### After the second gather and the second aggregation -/
theorem W6_v19 : W6 (F := Ideal) m ρ c (Proc.devRef .tc main_v19) = take32 (Cert.ReferenceIdeal.Read.val_main_v1 (F := Ideal) (a1 m c)) (proj2v (Cert.ReferenceIdeal.Read.val_main_v47 (F := Ideal) (a0 m c) (a1 m c) (a2 m c) (a3 m c)) (Cert.Gcn.Ref.dscale (a1 m c)) (a4 m c)) := by
  show StableHlo.after hostOps2 (W5 m ρ c) (Proc.devRef .tc main_v19) = _
  rw [after2, W5_v1, W5_v18 m ρ c hx hw1 hP]
omit hx hw1 hP in
theorem W6_v3 : W6 (F := Ideal) m ρ c (Proc.devRef .tc main_v3) = Cert.ReferenceIdeal.Read.val_main_v3 (F := Ideal) (a1 m c) :=
  (show W6 (F := Ideal) m ρ c (Proc.devRef .tc main_v3) = W5 m ρ c (Proc.devRef .tc main_v3) by host_skip hostOps2).trans (W5_v3 m ρ c)
omit hx hw1 hP in
theorem W6_v11 : W6 (F := Ideal) m ρ c (Proc.devRef .tc main_v11) = (Cert.Gcn.Ref.dscale (a1 m c)) :=
  (show W6 (F := Ideal) m ρ c (Proc.devRef .tc main_v11) = W5 m ρ c (Proc.devRef .tc main_v11) by host_skip hostOps2).trans (W5_v11 m ρ c)
theorem W6_v18 : W6 (F := Ideal) m ρ c (Proc.devRef .tc main_v18) = (proj2v (Cert.ReferenceIdeal.Read.val_main_v47 (F := Ideal) (a0 m c) (a1 m c) (a2 m c) (a3 m c)) (Cert.Gcn.Ref.dscale (a1 m c)) (a4 m c)) :=
  (show W6 (F := Ideal) m ρ c (Proc.devRef .tc main_v18) = W5 m ρ c (Proc.devRef .tc main_v18) by host_skip hostOps2).trans (W5_v18 m ρ c hx hw1 hP)
omit hx hw1 hP in
theorem W6_arg5 : W6 (F := Ideal) m ρ c (Proc.devRef .tc main_arg5) = a5 m c :=
  (show W6 (F := Ideal) m ρ c (Proc.devRef .tc main_arg5) = W5 m ρ c (Proc.devRef .tc main_arg5) by host_skip hostOps2).trans (W5_arg5 m ρ c)

omit hx hw1 hP in
theorem W7_v22_raw : W7 (F := Ideal) m ρ c (Proc.devRef .tc main_v22)
    = Host.scatterAdd scatter_S100000x32_S1600000x1_S1600000x32_1_0_0_1 (broadcastInDim S100000x32 ![] bcast_S_S100000x32 (constant (F := Ideal) S_ .f32 0x00000000#32))
        (broadcastInDim S1600000x1 ![0] bcast_S1600000_S1600000x1_0 (W6 m ρ c (Proc.devRef .tc main_v3))) (W6 m ρ c (Proc.devRef .tc main_v19)) := by
  show StableHlo.after hostOps2_1 (W6 m ρ c) (Proc.devRef .tc main_v22) = _
  generalize W6 m ρ c = V6
  after_results
  try rfl
theorem W7_v22 : W7 (F := Ideal) m ρ c (Proc.devRef .tc main_v22) = (Host.scatterAdd scatter_S100000x32_S1600000x1_S1600000x32_1_0_0_1 (broadcastInDim S100000x32 ![] bcast_S_S100000x32 (constant (F := Ideal) S_ .f32 0x00000000#32)) (broadcastInDim S1600000x1 ![0] bcast_S1600000_S1600000x1_0 (Cert.ReferenceIdeal.Read.val_main_v3 (F := Ideal) (a1 m c))) (take32 (Cert.ReferenceIdeal.Read.val_main_v1 (F := Ideal) (a1 m c)) (proj2v (Cert.ReferenceIdeal.Read.val_main_v47 (F := Ideal) (a0 m c) (a1 m c) (a2 m c) (a3 m c)) (Cert.Gcn.Ref.dscale (a1 m c)) (a4 m c)))) := by
  rw [W7_v22_raw, W6_v3, W6_v19 m ρ c hx hw1 hP]
omit hx hw1 hP in
theorem W7_v23 : W7 (F := Ideal) m ρ c (Proc.devRef .tc main_v23) = brow (a5 m c) := by
  have h : W7 (F := Ideal) m ρ c (Proc.devRef .tc main_v23) = shapeCast S1x32 (W6 m ρ c (Proc.devRef .tc main_arg5)) shapeCasts_S32_S1x32 := by
    show StableHlo.after hostOps2_1 (W6 m ρ c) (Proc.devRef .tc main_v23) = _
    generalize W6 m ρ c = V6
    after_results
    try rfl
  rw [h, W6_arg5]
  funext i
  exact reshape_row _ _ i
omit hx hw1 hP in
theorem W7_v11 : W7 (F := Ideal) m ρ c (Proc.devRef .tc main_v11) = (Cert.Gcn.Ref.dscale (a1 m c)) :=
  (show W7 (F := Ideal) m ρ c (Proc.devRef .tc main_v11) = W6 m ρ c (Proc.devRef .tc main_v11) by host_skip hostOps2_1).trans (W6_v11 m ρ c)
theorem W7_v18 : W7 (F := Ideal) m ρ c (Proc.devRef .tc main_v18) = (proj2v (Cert.ReferenceIdeal.Read.val_main_v47 (F := Ideal) (a0 m c) (a1 m c) (a2 m c) (a3 m c)) (Cert.Gcn.Ref.dscale (a1 m c)) (a4 m c)) :=
  (show W7 (F := Ideal) m ρ c (Proc.devRef .tc main_v18) = W6 m ρ c (Proc.devRef .tc main_v18) by host_skip hostOps2_1).trans (W6_v18 m ρ c hx hw1 hP)

include hb1 hw2

/-- The second layer: the kernel's aggregate, combined, is the value the reference's softmax is taken of. -/
theorem layer2_eq : combine (Host.scatterAdd scatter_S100000x32_S1600000x1_S1600000x32_1_0_0_1 (broadcastInDim S100000x32 ![] bcast_S_S100000x32 (constant (F := Ideal) S_ .f32 0x00000000#32)) (broadcastInDim S1600000x1 ![0] bcast_S1600000_S1600000x1_0 (Cert.ReferenceIdeal.Read.val_main_v3 (F := Ideal) (a1 m c))) (take32 (Cert.ReferenceIdeal.Read.val_main_v1 (F := Ideal) (a1 m c)) (proj2v (Cert.ReferenceIdeal.Read.val_main_v47 (F := Ideal) (a0 m c) (a1 m c) (a2 m c) (a3 m c)) (Cert.Gcn.Ref.dscale (a1 m c)) (a4 m c)))) (proj2v (Cert.ReferenceIdeal.Read.val_main_v47 (F := Ideal) (a0 m c) (a1 m c) (a2 m c) (a3 m c)) (Cert.Gcn.Ref.dscale (a1 m c)) (a4 m c)) (Cert.Gcn.Ref.dscale (a1 m c)) (brow (a5 m c))
    = Cert.ReferenceIdeal.Read.val_main_v85 (F := Ideal) (a0 m c) (a1 m c) (a2 m c) (a3 m c) (a4 m c) (a5 m c) := by
  refine Eq.trans ?_ (Cert.Gcn.Ref.layer2 (a0 m c) (a1 m c) (a2 m c) (a3 m c) (a4 m c) (a5 m c)
    (Cert.Gcn.Ref.layer1_real (a0 m c) (a1 m c) (a2 m c) (a3 m c) hx hw1 hb1) hw2 (take32 (Cert.ReferenceIdeal.Read.val_main_v1 (F := Ideal) (a1 m c)) (proj2v (Cert.ReferenceIdeal.Read.val_main_v47 (F := Ideal) (a0 m c) (a1 m c) (a2 m c) (a3 m c)) (Cert.Gcn.Ref.dscale (a1 m c)) (a4 m c))) (fun j => ?_))
  · rfl
  · rw [take32_apply (Cert.ReferenceIdeal.Read.val_main_v1 (F := Ideal) (a1 m c)) (proj2v (Cert.ReferenceIdeal.Read.val_main_v47 (F := Ideal) (a0 m c) (a1 m c) (a2 m c) (a3 m c)) (Cert.Gcn.Ref.dscale (a1 m c)) (a4 m c)) (src_range (a1 m c) hP) j, takeIdx_src']

/-- THE KERNEL'S VALUE: at the end of the run the result buffer holds the reference's result term of the argument arrays. -/
theorem kernel_value : W8 (F := Ideal) m ρ c (Proc.devRef .tc main_v24)
    = Cert.ReferenceIdeal.Read.val_main_v96 (F := Ideal) (a0 m c) (a1 m c) (a2 m c) (a3 m c) (a4 m c) (a5 m c) := by
  refine (W8_arr m ρ c 4).trans ((arr2 (V7 m ρ) c).trans ?_)
  show softmaxRows (combine (W7 m ρ c (Proc.devRef .tc main_v22)) (W7 m ρ c (Proc.devRef .tc main_v18)) (W7 m ρ c (Proc.devRef .tc main_v11)) (W7 m ρ c (Proc.devRef .tc main_v23))) = _
  rw [W7_v22 m ρ c hx hw1 hP, W7_v18 m ρ c hx hw1 hP, W7_v11, W7_v23, layer2_eq m c hx hw1 hb1 hw2 hP]
  exact Cert.Gcn.Ref.softmax_eq _ _ _ _ _ _

end Value

end Cert.Gcn.K

end
-- ==== Proof.PreFacts.lean ====
/-
  What the precondition says, read out of its printed predicate: every float input is a real number, and every entry of
  the edge array is a node number, `0 ≤ e < 100000`.
-/
import proofs.«422054_j87522843558074_3_alg».proof.Proof.Gen.Pre_finite_inputs
import proofs.«422054_j87522843558074_3_alg».proof.Proof.Model
import Idealize.ShloMosaic.Lib.ReduceAll
import Idealize.ShloMosaic.Lib.StableHlo.Predicate

noncomputable section

namespace Cert.Gcn

open Idealize.ShloMosaic Idealize.ShloMosaic.ValueIdx

/-- The rank-0 shape has one index, so an `and`-reduction over all axes lands in a one-element result. -/
instance subsingleton_scalar_idx : Subsingleton Cert.Pre_finite_inputs.S_.Idx :=
  ⟨fun _ _ => funext fun d => d.elim0⟩

/-- The word `0x7F800000` (sign 0, exponent all ones, fraction 0) denotes `+∞`. -/
theorem inf_word : Ideal.ofBits .f32 0x7F800000#32 = (⊤ : EReal) := by
  simp [Ideal.ofBits, Ideal.ieee]

/-- `|a| < +∞` over the extended reals, with `|a| = max a (-a)`, leaves only the real numbers:
    at `a = +∞` the maximum is `+∞`, and at `a = -∞` it is `-(-∞) = +∞` again. -/
theorem isReal_of_abs_lt_top (a : EReal) (h : Ideal.cmp .olt (max a (-a)) (⊤ : EReal) = 1#1) : IsReal a := by
  induction a using EReal.rec with
  | bot => simp [Ideal.cmp] at h
  | coe r => exact ⟨r, rfl⟩
  | top => simp [Ideal.cmp] at h

/-- One float conjunct of the predicate: `all (|a| < +∞)`, the bound a scalar broadcast over the array's shape,
    gives that every entry of `a` is real. The all-reduction being 1 makes each compared element 1; the element read is
    `|a i| < +∞` because a broadcast scalar reads the same word at every index. -/
theorem real_of_all_finite {t : Shape} {axes : List (Fin t.rank)} (a : FVec Ideal t .f32)
    (hb : Cert.Pre_finite_inputs.S_.BroadcastsInDim t (![] : Fin 0 → Fin t.rank))
    (hr : t.ReducesTo axes Cert.Pre_finite_inputs.S_) (hu : 0 < Cert.Pre_finite_inputs.S_.numel)
    (j : Cert.Pre_finite_inputs.S_.Idx)
    (e : Host.reduce IntOp.andi
        (cmpf .olt (Host.absf a)
          (broadcastInDim t ![] hb (constant (F := Ideal) Cert.Pre_finite_inputs.S_ .f32 0x7F800000#32)))
        (constantI Cert.Pre_finite_inputs.S_ 1 1#1) hr hu j = 1#1) (i : t.Idx) : IsReal (a i) := by
  have e1 := Host.reduce_andi_all _ _ hr hu j e i
  have e2 : Ideal.cmp .olt (max (a i) (-(a i))) (Ideal.ofBits .f32 0x7F800000#32) = 1#1 := e1
  rw [inf_word] at e2
  exact isReal_of_abs_lt_top (a i) e2

/-- The integer conjunct: `all (0 ≤ v ∧ v < 100000)` (both signed, both bounds scalars broadcast over the array) gives the
    two inequalities on every entry's signed value. -/
theorem range_of_all {t : Shape} {axes : List (Fin t.rank)} (v : IVec t 32)
    (hb : Cert.Pre_finite_inputs.S_.BroadcastsInDim t (![] : Fin 0 → Fin t.rank))
    (hr : t.ReducesTo axes Cert.Pre_finite_inputs.S_) (hu : 0 < Cert.Pre_finite_inputs.S_.numel)
    (j : Cert.Pre_finite_inputs.S_.Idx)
    (e : Host.reduce IntOp.andi
        (andi (cmpi .sge v (broadcastInDim t ![] hb (constantI Cert.Pre_finite_inputs.S_ 32 0#32)))
          (cmpi .slt v (broadcastInDim t ![] hb (constantI Cert.Pre_finite_inputs.S_ 32 100000#32))))
        (constantI Cert.Pre_finite_inputs.S_ 1 1#1) hr hu j = 1#1) (i : t.Idx) :
    0 ≤ (v i).toInt ∧ (v i).toInt < 100000 := by
  have e1 := Host.reduce_andi_all _ _ hr hu j e i
  have e2 : IntOp.andi (IntOp.cmpi .sge (v i) 0#32) (IntOp.cmpi .slt (v i) 100000#32) = 1#1 := e1
  obtain ⟨hge, hlt⟩ := IntOp.andi_eq_one.1 e2
  have h0 : (0#32 : BitVec 32).toInt = 0 := by decide
  have h1 : (100000#32 : BitVec 32).toInt = 100000 := by decide
  have hge' := IntOp.cmpi_sge.1 hge
  have hlt' := IntOp.cmpi_slt.1 hlt
  rw [h0] at hge'
  rw [h1] at hlt'
  exact ⟨hge', hlt'⟩

theorem pre_facts (x : Arr2 100000 256) (ei : IVec ⟨2, ![2, 1600000]⟩ 32) (w1 : Arr2 256 64) (b1 : Arr1 64)
    (w2 : Arr2 64 32) (b2 : Arr1 32)
    (h : Cert.Pre_finite_inputs.fn (F := Ideal) x ei w1 b1 w2 b2 = fun _ => 1#1) :
    (∀ i, IsReal (x i)) ∧ (∀ i, IsReal (w1 i)) ∧ (∀ i, IsReal (b1 i)) ∧ (∀ i, IsReal (w2 i)) ∧ (∀ i, IsReal (b2 i))
      ∧ (∀ i, 0 ≤ (ei i).toInt ∧ (ei i).toInt < 100000) := by
  have h0 := congrFun h ValueIdx.ix0
  dsimp only [Cert.Pre_finite_inputs.fn, Cert.Pre_finite_inputs.fn_part1] at h0
  -- the predicate is a left-nested conjunction of six all-reductions: x, w1, b1, w2, b2, ei
  obtain ⟨h5, hei⟩ := IntOp.andi_eq_one.1 h0
  obtain ⟨h4, hb2⟩ := IntOp.andi_eq_one.1 h5
  obtain ⟨h3, hw2⟩ := IntOp.andi_eq_one.1 h4
  obtain ⟨h2, hb1⟩ := IntOp.andi_eq_one.1 h3
  obtain ⟨hx, hw1⟩ := IntOp.andi_eq_one.1 h2
  exact ⟨real_of_all_finite x _ _ _ _ hx, real_of_all_finite w1 _ _ _ _ hw1, real_of_all_finite b1 _ _ _ _ hb1,
    real_of_all_finite w2 _ _ _ _ hw2, real_of_all_finite b2 _ _ _ _ hb2, range_of_all ei _ _ _ _ hei⟩

end Cert.Gcn

end
-- ==== Proof.lean ====
/-
  The certificate of a two-layer graph convolution with a softmax head: the kernel program (three kernel regions — a
  source-scaled projection, the same projection of the rectified first layer, a combine and row-wise softmax — with the
  edge gathers and per-destination sums between them on the host) against the reference (each message scaled by the
  product of its endpoint scales, summed per destination, plus the self term).

  With `d = rsqrt (deg + 1)` per node, the reference's layer is `∑_{e → n} (xW)[src e] · (d[src e] · d[n]) + d[n]² · (xW)[n] + b`
  and the kernel's is `d[n] · (∑_{e → n} d[src e] · (xW)[src e] + d[n] · (xW)[n]) + b`: equal by distributivity, which over
  the extended reals needs every quantity to be a real number — the precondition's finiteness of the float inputs. The
  precondition also says that every entry of the edge array is a node number: outside that range the reference itself
  indexes out of range, and the kernel's gather fills such a row where the reference's clamps.

  The three frames are the generated ones (the reference's is its generated run with the result dropped); `preserves` has
  no entry; for `algebraic` both runs end at ONE term, the reference's result stage `val_main_v96` of the argument arrays:
  the kernel's by reading its eight segments (Proof/KHost.lean), the reference's by its generated run.
-/
import proofs.«422054_j87522843558074_3_alg».proof.Defs
import proofs.«422054_j87522843558074_3_alg».proof.Proof.Gen.Kernel
import proofs.«422054_j87522843558074_3_alg».proof.Proof.Gen.Kernel.Skeleton
import proofs.«422054_j87522843558074_3_alg».proof.Proof.Gen.Kernel.Launch
import proofs.«422054_j87522843558074_3_alg».proof.Proof.Gen.Kernel.Points
import proofs.«422054_j87522843558074_3_alg».proof.Proof.Gen.Kernel.Frame
import proofs.«422054_j87522843558074_3_alg».proof.Proof.Gen.KernelIdeal
import proofs.«422054_j87522843558074_3_alg».proof.Proof.Gen.KernelIdeal.Skeleton
import proofs.«422054_j87522843558074_3_alg».proof.Proof.Gen.KernelIdeal.Launch
import proofs.«422054_j87522843558074_3_alg».proof.Proof.Gen.KernelIdeal.Points
import proofs.«422054_j87522843558074_3_alg».proof.Proof.Gen.KernelIdeal.Frame
import proofs.«422054_j87522843558074_3_alg».proof.Proof.Gen.ReferenceIdeal
import proofs.«422054_j87522843558074_3_alg».proof.Proof.Gen.Pre_finite_inputs
import proofs.«422054_j87522843558074_3_alg».proof.Proof.Gen.ReferenceIdeal.Run
import proofs.«422054_j87522843558074_3_alg».proof.Proof.Gen.ReferenceIdeal.Read
import proofs.«422054_j87522843558074_3_alg».proof.Proof.KernelRun
import proofs.«422054_j87522843558074_3_alg».proof.Proof.KHost
import proofs.«422054_j87522843558074_3_alg».proof.Proof.PreFacts
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's result stage of the (agreeing) argument arrays. -/
theorem algebraic : Cert.algebraic_KernelIdeal_ReferenceIdeal := by
  intro m ρ m' ρ' hpre hagree
  refine ⟨fun c => Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.GenRun.run_value (F := Ideal) m ρ)
    obtain ⟨hx, hw1, hb1, hw2, -, hP⟩ := Cert.Gcn.pre_facts _ _ _ _ _ _ (hpre c)
    exact Cert.Gcn.K.kernel_value m ρ c hx hw1 hb1 hw2 hP
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v96_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
